-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S16x64 : Shape := ⟨2, ![16, 64]⟩
abbrev S3x16 : Shape := ⟨2, ![3, 16]⟩
abbrev S3x64x64 : Shape := ⟨3, ![3, 64, 64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S3x16 : S_.BroadcastsInDim S3x16 (![] : Fin 0 → Fin S3x16.rank)
  reducesTo_S3x16_S_d0_1 : S3x16.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_arg9 : IVec S1200000 32) (main_arg10 : IVec S1200000 32) (main_v33 : IVec S_ 1) : IVec S_ 1 :=
  let main_c_12 : IVec S_ 32 := constantI S_ 32 0#32
  let main_v34 : IVec S1200000 32 := broadcastInDim S1200000 ![] bcast_S_S1200000 main_c_12
  let main_v35 : IVec S1200000 1 := cmpi .eq main_arg9 main_v34
  let main_c_13 : IVec S_ 32 := constantI S_ 32 1#32
  let main_v36 : IVec S1200000 32 := broadcastInDim S1200000 ![] bcast_S_S1200000 main_c_13
  let main_v37 : IVec S1200000 1 := cmpi .eq main_arg9 main_v36
  let main_v38 : IVec S1200000 1 := ori main_v35 main_v37
  let main_c_14 : IVec S_ 1 := constantI S_ 1 1#1
  let main_v39 : IVec S_ 1 := (fun x v => Host.reduce IntOp.andi x v reducesTo_S1200000_S_d0 h_S_) main_v38 main_c_14
  let main_v40 : IVec S_ 1 := andi main_v33 main_v39
  let main_c_15 : IVec S_ 32 := constantI S_ 32 0#32
  let main_v41 : IVec S1200000 32 := broadcastInDim S1200000 ![] bcast_S_S1200000 main_c_15
  let main_v42 : IVec S1200000 1 := cmpi .eq main_arg10 main_v41
  let main_c_16 : IVec S_ 32 := constantI S_ 32 1#32
  let main_v43 : IVec S1200000 32 := broadcastInDim S1200000 ![] bcast_S_S1200000 main_c_16
  let main_v44 : IVec S1200000 1 := cmpi .eq main_arg10 main_v43
  let main_v45 : IVec S1200000 1 := ori main_v42 main_v44
  let main_c_17 : IVec S_ 1 := constantI S_ 1 1#1
  let main_v46 : IVec S_ 1 := (fun x v => Host.reduce IntOp.andi x v reducesTo_S1200000_S_d0 h_S_) main_v45 main_c_17
  let main_v47 : IVec S_ 1 := andi main_v40 main_v46
  main_v47

def fn_part1 {F : FTy → Type} [FloatOps F] (main_arg4 : FVec F S3x64x64 .f32) (main_arg5 : FVec F S3x64x64 .f32) (main_arg6 : FVec F S3x64x64 .f32) (main_arg9 : IVec S1200000 32) (main_arg10 : IVec S1200000 32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : FVec F S16x64 .f32) (main_arg2 : FVec F S3x16 .f32) (main_arg3 : FVec F S3x64x64 .f32) (main_arg4 : FVec F S3x64x64 .f32) (main_arg5 : FVec F S3x64x64 .f32) (main_arg6 : FVec F S3x64x64 .f32) (main_arg7 : IVec S1200000 32) (main_arg8 : IVec S1200000 32) (main_arg9 : IVec S1200000 32) (main_arg10 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S3x16 .f32 := Host.absf main_arg2
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_arg5 main_arg6 main_arg9 main_arg10 main_v13 main_v16
-- ==== Kernel.lean ====
abbrev S100000x64 : Shape := ⟨2, ![100000, 64]⟩
abbrev S16x64 : Shape := ⟨2, ![16, 64]⟩
abbrev S3x16 : Shape := ⟨2, ![3, 16]⟩
abbrev S3x64x64 : Shape := ⟨3, ![3, 64, 64]⟩
abbrev S1200000 : Shape := ⟨1, ![1200000]⟩
abbrev S3x64 : Shape := ⟨2, ![3, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S10000x64 : Shape := ⟨2, ![10000, 64]⟩
abbrev S10000x1 : Shape := ⟨2, ![10000, 1]⟩
abbrev S1x64 : Shape := ⟨2, ![1, 64]⟩
abbrev S5000x64 : Shape := ⟨2, ![5000, 64]⟩

abbrev nBuf : Space → Nat
  | .hbm => 126
  | .vmem => 51
  | .smem => 0
  | _ => 0

abbrev bufTy : (tb : Table) → Fin (tcTables nBuf tb) → BufTy
  | .hbm, ⟨0, _⟩ => ⟨S100000x64, .f32⟩
  | .hbm, ⟨1, _⟩ => ⟨S16x64, .f32⟩
  | .hbm, ⟨2, _⟩ => ⟨S3x16, .f32⟩
  | .hbm, ⟨3, _⟩ => ⟨S3x64x64, .f32⟩
  | .hbm, ⟨4, _⟩ => ⟨S3x64x64, .f32⟩
  | .hbm, ⟨5, _⟩ => ⟨S3x64x64, .f32⟩
  | .hbm, ⟨6, _⟩ => ⟨S3x64x64, .f32⟩
  | .hbm, ⟨7, _⟩ => ⟨S1200000, .i32⟩
  | .hbm, ⟨8, _⟩ => ⟨S1200000, .i32⟩
  | .hbm, ⟨9, _⟩ => ⟨S1200000, .i32⟩
  | .hbm, ⟨10, _⟩ => ⟨S1200000, .i32⟩
  | .hbm, ⟨11, _⟩ => ⟨S3x64, .f32⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000, .bf16⟩
  | .hbm, ⟨17, _⟩ => ⟨S1200000x1, .bf16⟩
  | .hbm, ⟨18, _⟩ => ⟨S100000x64, .bf16⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .bf16⟩
  | .hbm, ⟨28, _⟩ => ⟨S3x64, .bf16⟩
  | .hbm, ⟨29, _⟩ => ⟨S1x64x64, .f32⟩
  | .hbm, ⟨30, _⟩ => ⟨S64x64, .f32⟩
  | .hbm, ⟨31, _⟩ => ⟨S64x64, .f32⟩
  | .hbm, ⟨32, _⟩ => ⟨S64x64, .bf16⟩
  | .hbm, ⟨33, _⟩ => ⟨S1x64x64, .f32⟩
  | .hbm, ⟨34, _⟩ => ⟨S64x64, .f32⟩
  | .hbm, ⟨35, _⟩ => ⟨S64x64, .f32⟩
  | .hbm, ⟨36, _⟩ => ⟨S64x64, .bf16⟩
  | .hbm, ⟨37, _⟩ => ⟨S1x64x64, .f32⟩
  | .hbm, ⟨38, _⟩ => ⟨S64x64, .f32⟩
  | .hbm, ⟨39, _⟩ => ⟨S64x64, .f32⟩
  | .hbm, ⟨40, _⟩ => ⟨S1200000x64, .bf16⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S3x64, .f32⟩
  | .hbm, ⟨52, _⟩ => ⟨S_, .f32⟩
  | .hbm, ⟨53, _⟩ => ⟨S3x64, .f32⟩
  | .hbm, ⟨54, _⟩ => ⟨S3x64, .f32⟩
  | .hbm, ⟨55, _⟩ => ⟨S100000x64, .bf16⟩
  | .hbm, ⟨56, _⟩ => ⟨S_, .i32⟩
  | .hbm, ⟨57, _⟩ => ⟨S1200000, .i32⟩
  | .hbm, ⟨58, _⟩ => ⟨S1200000, .i1⟩
  | .hbm, ⟨59, _⟩ => ⟨S_, .i32⟩
  | .hbm, ⟨60, _⟩ => ⟨S1200000, .i32⟩
  | .hbm, ⟨61, _⟩ => ⟨S1200000, .i32⟩
  | .hbm, ⟨62, _⟩ => ⟨S1200000, .i32⟩
  | .hbm, ⟨63, _⟩ => ⟨S1200000x1, .i32⟩
  | .hbm, ⟨64, _⟩ => ⟨S1200000x64, .bf16⟩
  | .hbm, ⟨65, _⟩ => ⟨S3x64, .bf16⟩
  | .hbm, ⟨66, _⟩ => ⟨S1x64x64, .f32⟩
  | .hbm, ⟨67, _⟩ => ⟨S64x64, .f32⟩
  | .hbm, ⟨68, _⟩ => ⟨S64x64, .f32⟩
  | .hbm, ⟨69, _⟩ => ⟨S64x64, .bf16⟩
  | .hbm, ⟨70, _⟩ => ⟨S1x64x64, .f32⟩
  | .hbm, ⟨71, _⟩ => ⟨S64x64, .f32⟩
  | .hbm, ⟨72, _⟩ => ⟨S64x64, .f32⟩
  | .hbm, ⟨73, _⟩ => ⟨S64x64, .bf16⟩
  | .hbm, ⟨74, _⟩ => ⟨S1x64x64, .f32⟩
  | .hbm, ⟨75, _⟩ => ⟨S64x64, .f32⟩
  | .hbm, ⟨76, _⟩ => ⟨S64x64, .f32⟩
  | .hbm, ⟨77, _⟩ => ⟨S1200000x64, .bf16⟩
  | .hbm, ⟨78, _⟩ => ⟨S1200000x64, .f32⟩
  | .hbm, ⟨79, _⟩ => ⟨S_, .f32⟩
  | .hbm, ⟨80, _⟩ => ⟨S100000x64, .f32⟩
  | .hbm, ⟨81, _⟩ => ⟨S1200000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S1x64x64, .f32⟩
  | .hbm, ⟨86, _⟩ => ⟨S64x64, .f32⟩
  | .hbm, ⟨87, _⟩ => ⟨S64x64, .f32⟩
  | .hbm, ⟨88, _⟩ => ⟨S3x64, .f32⟩
  | .hbm, ⟨89, _⟩ => ⟨S_, .f32⟩
  | .hbm, ⟨90, _⟩ => ⟨S3x64, .f32⟩
  | .hbm, ⟨91, _⟩ => ⟨S3x64, .f32⟩
  | .hbm, ⟨92, _⟩ => ⟨S100000x64, .bf16⟩
  | .hbm, ⟨93, _⟩ => ⟨S_, .i32⟩
  | .hbm, ⟨94, _⟩ => ⟨S1200000, .i32⟩
  | .hbm, ⟨95, _⟩ => ⟨S1200000, .i1⟩
  | .hbm, ⟨96, _⟩ => ⟨S_, .i32⟩
  | .hbm, ⟨97, _⟩ => ⟨S1200000, .i32⟩
  | .hbm, ⟨98, _⟩ => ⟨S1200000, .i32⟩
  | .hbm, ⟨99, _⟩ => ⟨S1200000, .i32⟩
  | .hbm, ⟨100, _⟩ => ⟨S1200000x1, .i32⟩
  | .hbm, ⟨101, _⟩ => ⟨S1200000x64, .bf16⟩
  | .hbm, ⟨102, _⟩ => ⟨S3x64, .bf16⟩
  | .hbm, ⟨103, _⟩ => ⟨S1x64x64, .f32⟩
  | .hbm, ⟨104, _⟩ => ⟨S64x64, .f32⟩
  | .hbm, ⟨105, _⟩ => ⟨S64x64, .f32⟩
  | .hbm, ⟨106, _⟩ => ⟨S64x64, .bf16⟩
  | .hbm, ⟨107, _⟩ => ⟨S1x64x64, .f32⟩
  | .hbm, ⟨108, _⟩ => ⟨S64x64, .f32⟩
  | .hbm, ⟨109, _⟩ => ⟨S64x64, .f32⟩
  | .hbm, ⟨110, _⟩ => ⟨S64x64, .bf16⟩
  | .hbm, ⟨111, _⟩ => ⟨S1x64x64, .f32⟩
  | .hbm, ⟨112, _⟩ => ⟨S64x64, .f32⟩
  | .hbm, ⟨113, _⟩ => ⟨S64x64, .f32⟩
  | .hbm, ⟨114, _⟩ => ⟨S1200000x64, .bf16⟩
  | .hbm, ⟨115, _⟩ => ⟨S1200000x64, .f32⟩
  | .hbm, ⟨116, _⟩ => ⟨S_, .f32⟩
  | .hbm, ⟨117, _⟩ => ⟨S100000x64, .f32⟩
  | .hbm, ⟨118, _⟩ => ⟨S1200000x1, .i32⟩
  | .hbm, ⟨119, _⟩ => ⟨S100000x64, .f32⟩
  | .hbm, ⟨120, _⟩ => ⟨S1x64, .f32⟩
  | .hbm, ⟨121, _⟩ => ⟨S100000x64, .f32⟩
  | .hbm, ⟨122, _⟩ => ⟨S1x64x64, .f32⟩
  | .hbm, ⟨123, _⟩ => ⟨S64x64, .f32⟩
  | .hbm, ⟨124, _⟩ => ⟨S64x64, .f32⟩
  | .hbm, ⟨125, _⟩ => ⟨S3x64, .f32⟩
  | .local _ .vmem, ⟨0, _⟩ => ⟨S10000x64, .bf16⟩
  | .local _ .vmem, ⟨1, _⟩ => ⟨S10000x64, .bf16⟩
  | .local _ .vmem, ⟨2, _⟩ => ⟨S10000x1, .bf16⟩
  | .local _ .vmem, ⟨3, _⟩ => ⟨S10000x1, .bf16⟩
  | .local _ .vmem, ⟨4, _⟩ => ⟨S3x64, .bf16⟩
  | .local _ .vmem, ⟨5, _⟩ => ⟨S64x64, .bf16⟩
  | .local _ .vmem, ⟨6, _⟩ => ⟨S64x64, .bf16⟩
  | .local _ .vmem, ⟨7, _⟩ => ⟨S10000x64, .bf16⟩
  | .local _ .vmem, ⟨8, _⟩ => ⟨S10000x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S10000x64, .bf16⟩
  | .local _ .vmem, ⟨18, _⟩ => ⟨S10000x64, .bf16⟩
  | .local _ .vmem, ⟨19, _⟩ => ⟨S10000x1, .bf16⟩
  | .local _ .vmem, ⟨20, _⟩ => ⟨S10000x1, .bf16⟩
  | .local _ .vmem, ⟨21, _⟩ => ⟨S3x64, .bf16⟩
  | .local _ .vmem, ⟨22, _⟩ => ⟨S64x64, .bf16⟩
  | .local _ .vmem, ⟨23, _⟩ => ⟨S64x64, .bf16⟩
  | .local _ .vmem, ⟨24, _⟩ => ⟨S10000x64, .bf16⟩
  | .local _ .vmem, ⟨25, _⟩ => ⟨S10000x64, .bf16⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S10000x64, .bf16⟩
  | .local _ .vmem, ⟨35, _⟩ => ⟨S10000x64, .bf16⟩
  | .local _ .vmem, ⟨36, _⟩ => ⟨S10000x1, .bf16⟩
  | .local _ .vmem, ⟨37, _⟩ => ⟨S10000x1, .bf16⟩
  | .local _ .vmem, ⟨38, _⟩ => ⟨S3x64, .bf16⟩
  | .local _ .vmem, ⟨39, _⟩ => ⟨S64x64, .bf16⟩
  | .local _ .vmem, ⟨40, _⟩ => ⟨S64x64, .bf16⟩
  | .local _ .vmem, ⟨41, _⟩ => ⟨S10000x64, .bf16⟩
  | .local _ .vmem, ⟨42, _⟩ => ⟨S10000x64, .bf16⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S64x64, .f32⟩
  | .local _ .vmem, ⟨49, _⟩ => ⟨S5000x64, .f32⟩
  | .local _ .vmem, ⟨50, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_3 : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_7 : Ref sig .tc := ⟨.hbm, 93, rfl⟩
abbrev main_v73 : Ref sig .tc := ⟨.hbm, 94, rfl⟩
abbrev main_v74 : Ref sig .tc := ⟨.hbm, 95, rfl⟩
abbrev main_c_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_9 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem4_1 : DmaSem sig := 50

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![120], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![120], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1200000 : S_.BroadcastsInDim S1200000 (![] : Fin 0 → Fin S1200000.rank)
  shapeCasts_S1200000_S1200000x1 : S1200000.ShapeCasts S1200000x1
  bitsLt_bf16_f32 : FTy.bits .bf16 < FTy.bits .f32
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  slices_S3x64_o0_0_S1x64 : S3x64.Slices ![0, 0] S1x64
  slices_S3x64_o1_0_S1x64 : S3x64.Slices ![1, 0] S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  natLt_1_32 : 1 < 32
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  slices_S3x64_S1x64_2_0 : S3x64.Slices ![2, 0] S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  bcast_S_S3x64 : S_.BroadcastsInDim S3x64 (![] : Fin 0 → Fin S3x64.rank)
  slices_S3x64x64_S1x64x64_1_0_0 : S3x64x64.Slices ![1, 0, 0] S1x64x64
  slices_S3x64x64_S1x64x64_2_0_0 : S3x64x64.Slices ![2, 0, 0] S1x64x64
  dot_S3x16_S16x64_S3x64_1_0_0_1_n_n_wf : DotDims.WF S3x16 S16x64 S3x64 [1] [0] [0] [1] [] []
  gather_S100000x64_S1200000x1_S1200000x64_1_0_n_n_0_1_164_wf : GatherDims.WF S100000x64 S1200000x1 S1200000x64 [1] [0] [] [0] [] 1 ![1, 64]
  dot_S10000x64_S64x64_S10000x64_1_0_0_1_n_n_wf : DotDims.WF S10000x64 S64x64 S10000x64 [1] [0] [0] [1] [] []
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S3x64_S64x64_S3x64_1_0_0_1_n_n_wf : DotDims.WF S3x64 S64x64 S3x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1200000x64.size a
  hwx0_0 : ∀ i : grid0.Coords, EltTy.bits .bf16 = 32 ∨ (Rect.block (s := S1200000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1200000x1.size a
  hwx0_1 : ∀ i : grid0.Coords, EltTy.bits .bf16 = 32 ∨ (Rect.block (s := S1200000x1) S10000x1.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .bf16 = 32 ∨ (Rect.block (s := S3x64) S3x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1200000x64.size a
  hwx0_5 : ∀ i : grid0.Coords, EltTy.bits .bf16 = 32 ∨ (Rect.block (s := S1200000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1200000x64.size a
  hwx2_0 : ∀ i : grid2.Coords, EltTy.bits .bf16 = 32 ∨ (Rect.block (s := S1200000x64) S10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1200000x1.size a
  hwx2_1 : ∀ i : grid2.Coords, EltTy.bits .bf16 = 32 ∨ (Rect.block (s := S1200000x1) S10000x1.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64.size a ≤ S3x64.size a
  hwx2_2 : ∀ i : grid2.Coords, EltTy.bits .bf16 = 32 ∨ (Rect.block (s := S3x64) S3x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .bf16 = 32 ∨ (Rect.block (s := S64x64) S64x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S1200000x64.size a
  hwx2_5 : ∀ i : grid2.Coords, EltTy.bits .bf16 = 32 ∨ (Rect.block (s := S1200000x64) S10000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1200000x64.size a
  hwx4_0 : ∀ i : grid4.Coords, EltTy.bits .bf16 = 32 ∨ (Rect.block (s := S1200000x64) S10000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1200000x1.size a
  hwx4_1 : ∀ i : grid4.Coords, EltTy.bits .bf16 = 32 ∨ (Rect.block (s := S1200000x1) S10000x1.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x64.size a ≤ S3x64.size a
  hwx4_2 : ∀ i : grid4.Coords, EltTy.bits .bf16 = 32 ∨ (Rect.block (s := S3x64) S3x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .bf16 = 32 ∨ (Rect.block (s := S64x64) S64x64.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .bf16 = 32 ∨ (Rect.block (s := S64x64) S64x64.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S1200000x64.size a
  hwx4_5 : ∀ i : grid4.Coords, EltTy.bits .bf16 = 32 ∨ (Rect.block (s := S1200000x64) S10000x64.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def dot_S3x16_S16x64_S3x64_1_0_0_1_n_n : DotDims S3x16 S16x64 S3x64 where
  lhsContracting := [1]
  rhsContracting := [0]
  lhsNonContracting := [0]
  rhsNonContracting := [1]
  lhsBatch := []
  rhsBatch := []
  wf := dot_S3x16_S16x64_S3x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S3x64_S64x64_S3x64_1_0_0_1_n_n : DotDims S3x64 S64x64 S3x64 where
  lhsContracting := [1]
  rhsContracting := [0]
  lhsNonContracting := [0]
  rhsNonContracting := [1]
  lhsBatch := []
  rhsBatch := []
  wf := dot_S3x64_S64x64_S3x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S3x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S3x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v65) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S16x64 : Shape := ⟨2, ![16, 64]⟩
abbrev S3x16 : Shape := ⟨2, ![3, 16]⟩
abbrev S3x64x64 : Shape := ⟨3, ![3, 64, 64]⟩
abbrev S1200000 : Shape := ⟨1, ![1200000]⟩
abbrev S3x64 : Shape := ⟨2, ![3, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S16x64, .f32⟩
  | 2 => ⟨S3x16, .f32⟩
  | 3 => ⟨S3x64x64, .f32⟩
  | 4 => ⟨S3x64x64, .f32⟩
  | 5 => ⟨S3x64x64, .f32⟩
  | 6 => ⟨S3x64x64, .f32⟩
  | 7 => ⟨S1200000, .i32⟩
  | 8 => ⟨S1200000, .i32⟩
  | 9 => ⟨S1200000, .i32⟩
  | 10 => ⟨S1200000, .i32⟩
  | 11 => ⟨S3x64, .f32⟩
  | 12 => ⟨S_, .i32⟩
  | 13 => ⟨S1200000, .i32⟩
  | 14 => ⟨S1200000, .i1⟩
  | 15 => ⟨S1200000x1, .i1⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S1200000x64, .f32⟩
  | 25 => ⟨S_, .i32⟩
  | 26 => ⟨S1200000, .i32⟩
  | 27 => ⟨S1200000, .i1⟩
  | 28 => ⟨S_, .i32⟩
  | 29 => ⟨S1200000, .i32⟩
  | 30 => ⟨S1200000, .i32⟩
  | 31 => ⟨S1200000, .i32⟩
  | 32 => ⟨S1200000x1, .i32⟩
  | 33 => ⟨S1200000x64, .f32⟩
  | 34 => ⟨S1200000x64, .f32⟩
  | 35 => ⟨S1x64x64, .f32⟩
  | 36 => ⟨S64x64, .f32⟩
  | 37 => ⟨S64x64, .f32⟩
  | 38 => ⟨S1200000x64, .f32⟩
  | 39 => ⟨S1x64x64, .f32⟩
  | 40 => ⟨S64x64, .f32⟩
  | 41 => ⟨S64x64, .f32⟩
  | 42 => ⟨S1200000x64, .f32⟩
  | 43 => ⟨S1200000x64, .i1⟩
  | 44 => ⟨S1200000x64, .f32⟩
  | 45 => ⟨S_, .f32⟩
  | 46 => ⟨S100000x64, .f32⟩
  | 47 => ⟨S1200000x1, .i32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S1x64x64, .f32⟩
  | 55 => ⟨S64x64, .f32⟩
  | 56 => ⟨S64x64, .f32⟩
  | 57 => ⟨S100000x64, .f32⟩
  | 58 => ⟨S100000x64, .f32⟩
  | 59 => ⟨S1x64x64, .f32⟩
  | 60 => ⟨S64x64, .f32⟩
  | 61 => ⟨S64x64, .f32⟩
  | 62 => ⟨S3x64, .f32⟩
  | 63 => ⟨S_, .f32⟩
  | 64 => ⟨S100000x64, .f32⟩
  | 65 => ⟨S100000x64, .f32⟩
  | 66 => ⟨S_, .f32⟩
  | 67 => ⟨S3x64, .f32⟩
  | 68 => ⟨S3x64, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S_, .i32⟩
  | 79 => ⟨S1200000, .i32⟩
  | 80 => ⟨S1200000, .i1⟩
  | 81 => ⟨S_, .i32⟩
  | 82 => ⟨S1200000, .i32⟩
  | 83 => ⟨S1200000, .i32⟩
  | 84 => ⟨S1200000, .i32⟩
  | 85 => ⟨S1200000x1, .i32⟩
  | 86 => ⟨S1200000x64, .f32⟩
  | 87 => ⟨S1200000x64, .f32⟩
  | 88 => ⟨S1x64x64, .f32⟩
  | 89 => ⟨S64x64, .f32⟩
  | 90 => ⟨S64x64, .f32⟩
  | 91 => ⟨S1200000x64, .f32⟩
  | 92 => ⟨S1x64x64, .f32⟩
  | 93 => ⟨S64x64, .f32⟩
  | 94 => ⟨S64x64, .f32⟩
  | 95 => ⟨S1200000x64, .f32⟩
  | 96 => ⟨S1200000x64, .i1⟩
  | 97 => ⟨S1200000x64, .f32⟩
  | 98 => ⟨S_, .f32⟩
  | 99 => ⟨S100000x64, .f32⟩
  | 100 => ⟨S1200000x1, .i32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S100000x64, .f32⟩
  | 107 => ⟨S1x64x64, .f32⟩
  | 108 => ⟨S64x64, .f32⟩
  | 109 => ⟨S64x64, .f32⟩
  | 110 => ⟨S100000x64, .f32⟩
  | 111 => ⟨S100000x64, .f32⟩
  | 112 => ⟨S1x64x64, .f32⟩
  | 113 => ⟨S64x64, .f32⟩
  | 114 => ⟨S64x64, .f32⟩
  | 115 => ⟨S3x64, .f32⟩
  | 116 => ⟨S_, .f32⟩
  | 117 => ⟨S100000x64, .f32⟩
  | 118 => ⟨S100000x64, .f32⟩
  | 119 => ⟨S_, .f32⟩
  | 120 => ⟨S3x64, .f32⟩
  | 121 => ⟨S3x64, .f32⟩
  | 122 => ⟨S_, .i32⟩
  | 123 => ⟨S1200000, .i32⟩
  | 124 => ⟨S1200000, .i1⟩
  | 125 => ⟨S_, .i32⟩
  | 126 => ⟨S1200000, .i32⟩
  | 127 => ⟨S1200000, .i32⟩
  | _ => ⟨S100000x64, .f32⟩

abbrev hbmTy0_1 (i : Nat) : BufTy := match i % 128 with
  | 0 => ⟨S1200000, .i32⟩
  | 1 => ⟨S1200000x1, .i32⟩
  | 2 => ⟨S1200000x64, .f32⟩
  | 3 => ⟨S_, .i32⟩
  | 4 => ⟨S1200000, .i32⟩
  | 5 => ⟨S1200000, .i1⟩
  | 6 => ⟨S_, .i32⟩
  | 7 => ⟨S1200000, .i32⟩
  | 8 => ⟨S1200000, .i32⟩
  | 9 => ⟨S1200000, .i32⟩
  | 10 => ⟨S1200000x1, .i32⟩
  | 11 => ⟨S1200000x64, .f32⟩
  | 12 => ⟨S1200000x64, .f32⟩
  | 13 => ⟨S1x64x64, .f32⟩
  | 14 => ⟨S64x64, .f32⟩
  | 15 => ⟨S64x64, .f32⟩
  | 16 => ⟨S1200000x64, .f32⟩
  | 17 => ⟨S1x64x64, .f32⟩
  | 18 => ⟨S64x64, .f32⟩
  | 19 => ⟨S64x64, .f32⟩
  | 20 => ⟨S1200000x64, .f32⟩
  | 21 => ⟨S1200000x64, .i1⟩
  | 22 => ⟨S1200000x64, .f32⟩
  | 23 => ⟨S_, .f32⟩
  | 24 => ⟨S100000x64, .f32⟩
  | 25 => ⟨S1200000x1, .i32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S1x64x64, .f32⟩
  | 33 => ⟨S64x64, .f32⟩
  | 34 => ⟨S64x64, .f32⟩
  | 35 => ⟨S100000x64, .f32⟩
  | 36 => ⟨S100000x64, .f32⟩
  | 37 => ⟨S1x64x64, .f32⟩
  | 38 => ⟨S64x64, .f32⟩
  | 39 => ⟨S64x64, .f32⟩
  | 40 => ⟨S3x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_v0 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_v45 : Ref sig .tc := ⟨.hbm, 65, rfl⟩
abbrev main_call2_cst : Ref sig .tc := ⟨.hbm, 66, rfl⟩
abbrev main_call2_v0 : Ref sig .tc := ⟨.hbm, 67, rfl⟩
abbrev main_v46 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_c_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call3_v0 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_call4_cst : Ref sig .tc := ⟨.hbm, 116, rfl⟩
abbrev main_call4_v0 : Ref sig .tc := ⟨.hbm, 117, rfl⟩
abbrev main_v88 : Ref sig .tc := ⟨.hbm, 118, rfl⟩
abbrev main_call5_cst : Ref sig .tc := ⟨.hbm, 119, rfl⟩
abbrev main_call5_v0 : Ref sig .tc := ⟨.hbm, 120, rfl⟩
abbrev main_v89 : Ref sig .tc := ⟨.hbm, 121, rfl⟩
abbrev main_c_9 : Ref sig .tc := ⟨.hbm, 122, rfl⟩
abbrev main_v90 : Ref sig .tc := ⟨.hbm, 123, rfl⟩
abbrev main_v91 : Ref sig .tc := ⟨.hbm, 124, rfl⟩
abbrev main_c_10 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_11 : Ref sig .tc := ⟨.hbm, 131, rfl⟩
abbrev main_v97 : Ref sig .tc := ⟨.hbm, 132, rfl⟩
abbrev main_v98 : Ref sig .tc := ⟨.hbm, 133, rfl⟩
abbrev main_c_12 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call6_v0 : Ref sig .tc := ⟨.hbm, 149, rfl⟩
abbrev main_v113 : Ref sig .tc := ⟨.hbm, 150, rfl⟩
abbrev main_cst_13 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S3x64_S1x64_2_0 : S3x64.Slices ![2, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3x64 : S_.BroadcastsInDim S3x64 (![] : Fin 0 → Fin S3x64.rank)
  slices_S3x64x64_S1x64x64_1_0_0 : S3x64x64.Slices ![1, 0, 0] S1x64x64
  slices_S3x64x64_S1x64x64_2_0_0 : S3x64x64.Slices ![2, 0, 0] S1x64x64
  dot_S3x16_S16x64_S3x64_1_0_0_1_n_n_wf : DotDims.WF S3x16 S16x64 S3x64 [1] [0] [0] [1] [] []
  gather_S100000x64_S1200000x1_S1200000x64_1_0_n_n_0_1_164_wf : GatherDims.WF S100000x64 S1200000x1 S1200000x64 [1] [0] [] [0] [] 1 ![1, 64]
  gather_S3x64_S1200000x1_S1200000x64_1_0_n_n_0_1_164_wf : GatherDims.WF S3x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S3x64_S64x64_S3x64_1_0_0_1_n_n_wf : DotDims.WF S3x64 S64x64 S3x64 [1] [0] [0] [1] [] []

variable [Facts₀]

def dot_S3x16_S16x64_S3x64_1_0_0_1_n_n : DotDims S3x16 S16x64 S3x64 where
  lhsContracting := [1]
  rhsContracting := [0]
  lhsNonContracting := [0]
  rhsNonContracting := [1]
  lhsBatch := []
  rhsBatch := []
  wf := dot_S3x16_S16x64_S3x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S3x64_S1200000x1_S1200000x64_1_0_n_n_0_1_164 : GatherDims S3x64 S1200000x1 S1200000x64 where
  offsetDims := [1]
  collapsedSliceDims := [0]
  operandBatchingDims := []
  startIndicesBatchingDims := []
  startIndexMap := [0]
  indexVectorDim := 1
  sliceSizes := ![1, 64]
  wf := gather_S3x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S3x64_S64x64_S3x64_1_0_0_1_n_n : DotDims S3x64 S64x64 S3x64 where
  lhsContracting := [1]
  rhsContracting := [0]
  lhsNonContracting := [0]
  rhsNonContracting := [1]
  lhsBatch := []
  rhsBatch := []
  wf := dot_S3x64_S64x64_S3x64_1_0_0_1_n_n_wf

class Facts : Prop extends Facts₀ where

variable [Facts]
-- ==== Proof.Spec.lean ====
/-
  One layer of the relational message passing both programs compute, as functions of arrays, over the literal
  shapes: N = 100000 nodes with 64 features, E = 1200000 edges, 3 relation rows (two edge types and the self loop).

  An edge e with source features hs[e, ·], type et[e] in {0, 1} and direction dr[e] in {0, 1} sends
      msg[e, q] = sum over k of (hs[e, k] - hr[et[e], k]) * W[k, q],   W = wi when dr[e] = 1, wo otherwise;
  a node i with features hu[i, ·], aggregated messages agg[i, ·] and the self-loop row hrs[0, ·] becomes
      out[i, q] = (sum over k of (hu[i, k] - hrs[0, k]) * ws[k, q]) + agg[i, q],   clipped below at 0 on the
  layers that apply the rectifier.
-/
import Idealize.ShloMosaic.PureOps.Ideal
import Idealize.ShloMosaic.Lib.ValueIdx

noncomputable section

namespace Cert.Layers

open Idealize.ShloMosaic Idealize.ShloMosaic.ValueIdx

abbrev SE : Shape := ⟨1, ![1200000]⟩
abbrev SE1 : Shape := ⟨2, ![1200000, 1]⟩
abbrev SE64 : Shape := ⟨2, ![1200000, 64]⟩
abbrev SN64 : Shape := ⟨2, ![100000, 64]⟩
abbrev SR64 : Shape := ⟨2, ![3, 64]⟩
abbrev SW : Shape := ⟨2, ![64, 64]⟩
abbrev S1R : Shape := ⟨2, ![1, 64]⟩

/-- The relation row an edge-type word selects: row 1 for the word 1, row 0 for every other word. -/
def relRow (w : BitVec 32) : Fin 3 := if w = 1#32 then 1 else 0

/-- The message of every edge: the source features less the edge type's relation row, through the direction's
    weight matrix. -/
def edgeMsg (hs : SE64.Idx → EReal) (hr : SR64.Idx → EReal) (wo wi : SW.Idx → EReal) (et dr : SE.Idx → BitVec 32) :
    SE64.Idx → EReal := fun i =>
  ∑ k : Fin 64,
    (hs (ix2 (⟨(i 0).val, (i 0).isLt⟩ : Fin 1200000) k)
        - hr (ix2 (relRow (et (ix1 (⟨(i 0).val, (i 0).isLt⟩ : Fin 1200000)))) k))
      * (if dr (ix1 (⟨(i 0).val, (i 0).isLt⟩ : Fin 1200000)) = 1#32 then wi else wo)
          (ix2 k (⟨(i 1).val, (i 1).isLt⟩ : Fin 64))

/-- The new features of every node: its own features less the self-loop row, through the self weight matrix, plus
    what its incoming edges sent; with the rectifier where `relu` says so. -/
def nodeOut (relu : Bool) (hu agg : SN64.Idx → EReal) (hrs : S1R.Idx → EReal) (ws : SW.Idx → EReal) :
    SN64.Idx → EReal := fun i =>
  let v := (∑ k : Fin 64,
      (hu (ix2 (⟨(i 0).val, (i 0).isLt⟩ : Fin 100000) k) - hrs (ix2 (0 : Fin 1) k))
        * ws (ix2 k (⟨(i 1).val, (i 1).isLt⟩ : Fin 64))) + agg i
  if relu then max v 0 else v

/-- The per-edge mode column the kernel packs: twice the type word plus the direction word, read as a signed
    integer. -/
def modeCol (et dr : SE.Idx → BitVec 32) : SE1.Idx → EReal := fun i =>
  (((et (ix1 (⟨(i 0).val, (i 0).isLt⟩ : Fin 1200000)) * 2#32
      + dr (ix1 (⟨(i 0).val, (i 0).isLt⟩ : Fin 1200000))).toInt : ℝ) : EReal)

end Cert.Layers

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.ModeColumn.lean ====
/-
  The mode column the kernel program packs for its edge calls.
  The host multiplies the edge-type words by 2, adds the direction words, reads the sums as signed integers into a float
  format, and reshapes the vector to one column: at row e the column holds the number 2·type[e] + direction[e]
  (computed in 32-bit words) — the specification's mode column.
-/
import proofs.«415866_j30846455119993_3_alg».proof.Proof.Gen.KernelIdeal
import proofs.«415866_j30846455119993_3_alg».proof.Proof.Spec
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.ModeColumn

open Cert.KernelIdeal Cert.KernelIdeal.Gen Idealize.ShloMosaic Idealize.ShloMosaic.ValueIdx

/-- The packed column, read row by row, is twice the type word plus the direction word as a signed integer. -/
theorem mode_eq (x9 x10 : IVec S1200000 32) :
    (shapeCast S1200000x1 (sitofp (F := Ideal) .bf16 (addi (muli x9 (broadcastInDim S1200000 ![] bcast_S_S1200000 (constantI S_ 32 2#32))) x10))
        shapeCasts_S1200000_S1200000x1 : S1200000x1.Idx → EReal)
      = Cert.Layers.modeCol x9 x10 := by
  funext i
  -- an index of the column is a row e and the one column 0
  obtain ⟨e, z, rfl⟩ : ∃ (e : Fin 1200000) (z : Fin 1), i = ix2 e z := ⟨i 0, i 1, eq_ix2 i⟩
  obtain rfl : z = 0 := Subsingleton.elim _ _
  -- the reshape to a column keeps the position: the column at (e, 0) is the vector at e
  rw [Cert.LibSlice.col_of_vec_apply]
  -- the integer-to-float reading, the sum and the product all act position by position
  show (((IntOp.addi (IntOp.muli (x9 (ix1 e)) (broadcastInDim S1200000 ![] bcast_S_S1200000 (constantI S_ 32 2#32) (ix1 e)))
      (x10 (ix1 e))).toInt : ℝ) : EReal) = _
  -- the broadcast scalar 2 reads 2 at every position; what remains is the specification's formula at row e
  rw [StableHlo.Predicate.bcast_scalar bcast_S_S1200000 (by decide)]
  rfl

end Cert.KernelIdeal.ModeColumn

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.EdgeRegion0.lean ====
/-
  The first edge call's result array as one function of its window arrays.
  Grid point t of 120 handles edges 10000 t … 10000 t + 9999: it reads those rows of the gathered source features and
  of the mode column, the whole relation table and both weight matrices, and writes those rows of the message array.
  When the mode column holds 2·type + direction with both labels in {0, 1}, the body's two selector factors are 0 or 1,
  so its blend of the two relation rows is the row of the edge's type and its blend of the two products is the product
  through the direction's matrix: the block written at t is the edges' messages, and the blocks tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue0

open Cert.KernelIdeal Cert.KernelIdeal.Gen Idealize.ShloMosaic Idealize.ShloMosaic.TcCoe Idealize.SL.Sem
open Idealize.ShloMosaic.ValueIdx
open Idealize.ShloMosaic.Pipeline (Dat)

/-! ## The float constants the body spells, as extended reals -/

private theorem two_bf16 : Ideal.ofBits .bf16 0x4000#16 = 2 := by
  simp [Ideal.ofBits, Ideal.ieee, -EReal.coe_mul]; norm_num; norm_cast
private theorem one_bf16 : Ideal.ofBits .bf16 0x3F80#16 = 1 := by
  simp [Ideal.ofBits, Ideal.ieee, -EReal.coe_mul]; norm_num
private theorem three_bf16 : Ideal.ofBits .bf16 0x4040#16 = 3 := by
  simp [Ideal.ofBits, Ideal.ieee, -EReal.coe_mul]; norm_num; norm_cast
private theorem one_f32 : Ideal.ofBits .f32 0x3F800000#32 = 1 := by
  simp [Ideal.ofBits, Ideal.ieee, -EReal.coe_mul]; norm_num

/-! ## The two selectors of a mode value -/

/-- The type selector of a mode value x: the comparison "x is at least 2" as a 0/1 number. -/
private def typeSel (x : EReal) : EReal := ((((Ideal.cmp .oge x 2).setWidth 32).toInt : ℝ) : EReal)

/-- The direction selector of a mode value x: "x is 1 or x is 3" as a 0/1 number. -/
private def dirSel (x : EReal) : EReal :=
  ((((IntOp.ori (Ideal.cmp .oeq x 1) (Ideal.cmp .oeq x 3)).setWidth 32).toInt : ℝ) : EReal)

private theorem selWord_true : (((BitVec.ofBool true).setWidth 32).toInt : ℤ) = 1 := by decide
private theorem selWord_false : (((BitVec.ofBool false).setWidth 32).toInt : ℤ) = 0 := by decide

/-- At a real mode value the type selector is 1 from 2 upwards and 0 below. -/
private theorem typeSel_coe (r : ℝ) : typeSel (r : EReal) = if 2 ≤ r then 1 else 0 := by
  unfold typeSel Ideal.cmp
  show ((((BitVec.ofBool (decide ((2 : EReal) ≤ (r : EReal)))).setWidth 32).toInt : ℝ) : EReal) = _
  have h2 : ((2 : EReal) ≤ (r : EReal)) ↔ 2 ≤ r := by
    rw [show (2 : EReal) = ((2 : ℝ) : EReal) from rfl, EReal.coe_le_coe_iff]
  by_cases h : 2 ≤ r
  · rw [if_pos h, decide_eq_true (h2.mpr h), selWord_true]; simp
  · rw [if_neg h, decide_eq_false (mt h2.mp h), selWord_false]; simp

/-- At a real mode value the direction selector is 1 at 1 and at 3 and 0 elsewhere. -/
private theorem dirSel_coe (r : ℝ) : dirSel (r : EReal) = if r = 1 ∨ r = 3 then 1 else 0 := by
  unfold dirSel Ideal.cmp
  show ((((IntOp.ori (BitVec.ofBool (decide ((r : EReal) = 1))) (BitVec.ofBool (decide ((r : EReal) = 3)))).setWidth 32).toInt : ℝ)
    : EReal) = _
  have h1 : ((r : EReal) = 1) ↔ r = 1 := by
    rw [show (1 : EReal) = ((1 : ℝ) : EReal) from rfl, EReal.coe_eq_coe_iff]
  have h3 : ((r : EReal) = 3) ↔ r = 3 := by
    rw [show (3 : EReal) = ((3 : ℝ) : EReal) from rfl, EReal.coe_eq_coe_iff]
  rw [decide_eq_decide.mpr h1, decide_eq_decide.mpr h3]
  by_cases e1 : r = 1 <;> by_cases e3 : r = 3
  · rw [if_pos (Or.inl e1), decide_eq_true e1, decide_eq_true e3]
    rw [show ((IntOp.ori (BitVec.ofBool true) (BitVec.ofBool true)).setWidth 32).toInt = 1 from by decide]; simp
  · rw [if_pos (Or.inl e1), decide_eq_true e1, decide_eq_false e3]
    rw [show ((IntOp.ori (BitVec.ofBool true) (BitVec.ofBool false)).setWidth 32).toInt = 1 from by decide]; simp
  · rw [if_pos (Or.inr e3), decide_eq_false e1, decide_eq_true e3]
    rw [show ((IntOp.ori (BitVec.ofBool false) (BitVec.ofBool true)).setWidth 32).toInt = 1 from by decide]; simp
  · rw [if_neg (fun h => h.elim e1 e3), decide_eq_false e1, decide_eq_false e3]
    rw [show ((IntOp.ori (BitVec.ofBool false) (BitVec.ofBool false)).setWidth 32).toInt = 0 from by decide]; simp

/-- A mode 2 a + b with both words 0 or 1 is one of 0, 1, 2, 3: its type selector says whether a is 1, its direction
    selector whether b is 1. -/
private theorem sel_of_mode (a b : BitVec 32) (ha : a = 0#32 ∨ a = 1#32) (hb : b = 0#32 ∨ b = 1#32) :
    typeSel ((((a * 2#32 + b).toInt : ℝ)) : EReal) = (if a = 1#32 then 1 else 0)
      ∧ dirSel ((((a * 2#32 + b).toInt : ℝ)) : EReal) = (if b = 1#32 then 1 else 0) := by
  rw [typeSel_coe, dirSel_coe]
  rcases ha with rfl | rfl <;> rcases hb with rfl | rfl
  · rw [show (0#32 * 2#32 + 0#32).toInt = 0 from by decide]; norm_num
  · rw [show (0#32 * 2#32 + 1#32).toInt = 1 from by decide]; norm_num
  · rw [show (1#32 * 2#32 + 0#32).toInt = 2 from by decide]; norm_num
  · rw [show (1#32 * 2#32 + 1#32).toInt = 3 from by decide]; norm_num

/-- On the extended reals 1 - 1 is 0 (both are finite). -/
private theorem one_sub_one : (1 : EReal) - 1 = 0 := by
  rw [show (1 : EReal) = ((1 : ℝ) : EReal) from rfl, ← EReal.coe_sub, sub_self, EReal.coe_zero]

/-! ## The body's values at an entry -/

private theorem zeroOff : (![0, 0] : Fin 2 → Nat) = fun _ => 0 := funext fun a => by fin_cases a <;> rfl

/-- A one-column array spread along a second axis reads, at (p, c), its entry in row p. -/
private theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mode column enters the arithmetic unchanged. -/
private theorem pay2_eq (v6 : Vec Ideal S10000x1 .bf16) : k0_pay2 v6 = v6 := by
  unfold k0_pay2; exact shapeCast_self _ _

/-- The direction selector column, row by row. -/
private theorem pay3_apply (v6 : Vec Ideal S10000x1 .bf16) (j : S10000x1.Idx) : k0_pay3 v6 j = dirSel (v6 j) := by
  unfold k0_pay3
  rw [pay2_eq]
  show ((((IntOp.ori (Ideal.cmp .oeq (v6 j) (Ideal.ofBits .bf16 0x3F80#16))
    (Ideal.cmp .oeq (v6 j) (Ideal.ofBits .bf16 0x4040#16))).setWidth 32).toInt : ℝ) : EReal) = _
  rw [one_bf16, three_bf16]
  rfl

/-- The type selector column, row by row. -/
private theorem typeCol_apply (v6 : Vec Ideal S10000x1 .bf16) (j : S10000x1.Idx) :
    (truncf .bf16 (sitofp (F := Ideal) .f32 (extui 32 (cmpf .oge (k0_pay2 v6)
        (broadcast S10000x1 (Scalar.ofBits (F := Ideal) .bf16 0x4000#16))) natLt_1_32)) bitsLt_bf16_f32
      : FVec Ideal S10000x1 .bf16) j = typeSel (v6 j) := by
  rw [pay2_eq]
  show ((((Ideal.cmp .oge (v6 j) (Ideal.ofBits .bf16 0x4000#16)).setWidth 32).toInt : ℝ) : EReal) = _
  rw [two_bf16]
  rfl

/-- The matrices' left factor at (p, k): the source feature less the selector-weighted blend of relation rows 1 and 0. -/
private theorem pay4_apply (v0 : Vec Ideal S10000x64 .bf16) (v2 : Vec Ideal S3x64 .bf16) (v6 : Vec Ideal S10000x1 .bf16)
    (p : Fin 10000) (k : Fin 64) :
    k0_pay4 v0 v2 v6 (ix2 p k)
      = v0 (ix2 p k) - (typeSel (v6 (ix2 p 0)) * v2 (ix2 1 k) + (1 - typeSel (v6 (ix2 p 0))) * v2 (ix2 0 k)) := by
  unfold k0_pay4
  simp only [shapeCast_self]
  rw [subf_apply, addf_apply, mulf_apply, mulf_apply]
  rw [colBroadcast_apply, colBroadcast_apply, broadcastTo_1b_ab_apply, broadcastTo_1b_ab_apply, subf_apply,
    typeCol_apply, broadcast_apply]
  rw [extractStridedSlice_apply ![1, 0] v2 slices_S3x64_o1_0_S1x64 (ix2 (0 : Fin 1) k) (ix2 (1 : Fin 3) k) (fun x => match x with
      | ⟨0, _⟩ => rfl
      | ⟨1, _⟩ => by show k.val = 0 + k.val; omega),
    extractStridedSlice_apply ![0, 0] v2 slices_S3x64_o0_0_S1x64 (ix2 (0 : Fin 1) k) (ix2 (0 : Fin 3) k) (fun x => match x with
      | ⟨0, _⟩ => rfl
      | ⟨1, _⟩ => by show k.val = 0 + k.val; omega)]
  rw [show (FloatOps.ofBits (F := Ideal) .bf16 0x3F80#16) = 1 from one_bf16]

/-- The product through the second matrix, weighted by the direction selector, at (p, q). -/
private theorem pay5_apply (v0 : Vec Ideal S10000x64 .bf16) (v2 : Vec Ideal S3x64 .bf16) (v6 : Vec Ideal S10000x1 .bf16)
    (v32 : Vec Ideal S64x64 .bf16) (p : Fin 10000) (q : Fin 64) :
    k0_pay5 v0 v2 v6 v32 (ix2 p q)
      = dirSel (v6 (ix2 p 0)) * ∑ k : Fin 64, k0_pay4 v0 v2 v6 (ix2 p k) * v32 (ix2 k q) := by
  unfold k0_pay5
  simp only [shapeCast_self]
  rw [mulf_apply, colBroadcast_apply, pay3_apply]
  exact congrArg (dirSel (v6 (ix2 p 0)) * ·)
    (Cert.LibPlainDot.matmul_zero_apply dot_S10000x64_S64x64_S10000x64_1_0_0_1_n_n_wf none (k0_pay4 v0 v2 v6) v32 p q)

/-- The product through the first matrix, weighted by one less the direction selector, at (p, q). -/
private theorem pay6_apply (v0 : Vec Ideal S10000x64 .bf16) (v2 : Vec Ideal S3x64 .bf16) (v6 : Vec Ideal S10000x1 .bf16)
    (v30 : Vec Ideal S64x64 .bf16) (p : Fin 10000) (q : Fin 64) :
    k0_pay6 v0 v2 v6 v30 (ix2 p q)
      = (1 - dirSel (v6 (ix2 p 0))) * ∑ k : Fin 64, k0_pay4 v0 v2 v6 (ix2 p k) * v30 (ix2 k q) := by
  unfold k0_pay6
  simp only [shapeCast_self]
  rw [mulf_apply, colBroadcast_apply, subf_apply, pay3_apply, broadcast_apply]
  rw [show (Scalar.ofBits (F := Ideal) .f32 0x3F800000#32) = 1 from one_f32]
  exact congrArg ((1 - dirSel (v6 (ix2 p 0))) * ·)
    (Cert.LibPlainDot.matmul_zero_apply dot_S10000x64_S64x64_S10000x64_1_0_0_1_n_n_wf none (k0_pay4 v0 v2 v6) v30 p q)

/-- What the body leaves in the output block at (p, q): the sum of the two weighted products. -/
private theorem out_entry (x0 : Vec Ideal S10000x64 .bf16) (x1 : Vec Ideal S10000x1 .bf16) (x2 : Vec Ideal S3x64 .bf16)
    (x3 x4 : Vec Ideal S64x64 .bf16) (p : Fin 10000) (q : Fin 64) :
    out0_5 (F := Ideal) x0 x1 x2 x3 x4 (ix2 p q) = k0_pay5 x0 x2 x1 x4 (ix2 p q) + k0_pay6 x0 x2 x1 x3 (ix2 p q) := by
  unfold out0_5
  rw [View.canon_unit_zero zeroOff]
  simp only [View.ld_unit_zero (S := S10000x64) zeroOff, View.ld_unit_zero (S := S3x64) zeroOff,
    View.ld_unit_zero (S := S10000x1) zeroOff, View.ld_unit_zero (S := S64x64) zeroOff]
  unfold k0_pay1
  rfl

/-- One entry of the block the body writes, when the row's mode is twice a type word plus a direction word, both 0 or 1:
    the row of source features less the type's relation row, through the direction's matrix. The selectors are 0 or 1,
    and 0 * x = 0, 1 * x = x, x + 0 = x hold for every extended real x, so nothing need be finite. -/
private theorem entry_of_mode (x0 : Vec Ideal S10000x64 .bf16) (x1 : Vec Ideal S10000x1 .bf16) (x2 : Vec Ideal S3x64 .bf16)
    (x3 x4 : Vec Ideal S64x64 .bf16) (p : Fin 10000) (q : Fin 64)
    (a b : BitVec 32) (ha : a = 0#32 ∨ a = 1#32) (hb : b = 0#32 ∨ b = 1#32)
    (hm : x1 (ix2 p 0) = ((((a * 2#32 + b).toInt : ℝ)) : EReal)) :
    out0_5 (F := Ideal) x0 x1 x2 x3 x4 (ix2 p q)
      = ∑ k : Fin 64, (x0 (ix2 p k) - x2 (ix2 (Cert.Layers.relRow a) k)) * (if b = 1#32 then x4 else x3) (ix2 k q) := by
  obtain ⟨ht, hd⟩ := sel_of_mode a b ha hb
  rw [out_entry, pay5_apply, pay6_apply]
  simp only [pay4_apply, hm, ht, hd]
  have n01 : ¬((0#32 : BitVec 32) = 1#32) := by decide
  rcases ha with rfl | rfl <;> rcases hb with rfl | rfl <;>
    simp only [Cert.Layers.relRow, if_neg n01, if_true, eq_self_iff_true, one_mul, zero_mul, add_zero, zero_add, sub_zero,
      one_sub_one]

/-! ## The windows' blocks as parts of their arrays -/

variable (V : (c : Dev nD) → (b : Ref sig .tc) → Buf (Elt Ideal) ((c : Thread nD τ).loc b))

/-- Where each window's block sits at grid point t: the two row-tiled inputs and the output at block row t, the relation
    table and the two matrices whole. -/
private theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the source-feature block at t is row 10000 t + p of the source-feature array. -/
private theorem srcBlock_apply (c : Dev nD) (t : Fin cfg0.N) (p : Fin 10000) (k : Fin 64) (e : Fin 1200000)
    (he : e.val = 10000 * t.val + p.val) :
    (iblk0 V c 0 t : Vec Ideal S10000x64 .bf16) (ix2 p k) = (V c main_v13 : S1200000x64.Idx → EReal) (ix2 e k) := by
  unfold iblk0
  rw [View.read_apply]
  show (V c main_v13 : S1200000x64.Idx → EReal) _ = _
  congr 1
  funext a
  apply Fin.ext
  match a with
  | ⟨0, _⟩ => show win0_0.index t (0 : Fin 2) * 10000 + 1 * p.val = e.val; rw [(blockIndex t).1, he]; omega
  | ⟨1, _⟩ => show win0_0.index t (1 : Fin 2) * 64 + 1 * k.val = k.val; rw [(blockIndex t).2.1]; omega

/-- Row p of the mode block at t is row 10000 t + p of the mode column. -/
private theorem modeBlock_apply (c : Dev nD) (t : Fin cfg0.N) (p : Fin 10000) (e : Fin 1200000)
    (he : e.val = 10000 * t.val + p.val) :
    (iblk0 V c 1 t : Vec Ideal S10000x1 .bf16) (ix2 p (0 : Fin 1))
      = (V c main_v5 : S1200000x1.Idx → EReal) (ix2 e (0 : Fin 1)) := by
  unfold iblk0
  rw [View.read_apply]
  show (V c main_v5 : S1200000x1.Idx → EReal) _ = _
  congr 1
  funext a
  apply Fin.ext
  match a with
  | ⟨0, _⟩ => show win0_1.index t (0 : Fin 2) * 10000 + 1 * p.val = e.val; rw [(blockIndex t).2.2.1, he]; omega
  | ⟨1, _⟩ => show win0_1.index t (1 : Fin 2) * 1 + 1 * 0 = 0; rw [(blockIndex t).2.2.2.1]

/-- The relation table's block is the whole table at every grid point. -/
private theorem relBlock_eq (c : Dev nD) (t : Fin cfg0.N) :
    (iblk0 V c 2 t : Vec Ideal S3x64 .bf16) = (V c main_v14 : S3x64.Idx → EReal) := by
  funext j
  unfold iblk0
  rw [View.read_apply]
  show (V c main_v14 : S3x64.Idx → EReal) _ = _
  congr 1
  funext a
  apply Fin.ext
  obtain ⟨-, -, -, -, e0, e1, -⟩ := blockIndex t
  match a with
  | ⟨0, _⟩ => show win0_2.index t (0 : Fin 2) * 3 + 1 * (j 0).val = (j 0).val; rw [e0]; omega
  | ⟨1, _⟩ => show win0_2.index t (1 : Fin 2) * 64 + 1 * (j 1).val = (j 1).val; rw [e1]; omega

/-- The first matrix's block is the whole matrix at every grid point. -/
private theorem outBlock_eq (c : Dev nD) (t : Fin cfg0.N) :
    (iblk0 V c 3 t : Vec Ideal S64x64 .bf16) = (V c main_v18 : S64x64.Idx → EReal) := by
  funext j
  unfold iblk0
  rw [View.read_apply]
  show (V c main_v18 : S64x64.Idx → EReal) _ = _
  congr 1
  funext a
  apply Fin.ext
  obtain ⟨-, -, -, -, -, -, e0, e1, -⟩ := blockIndex t
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- The second matrix's block is the whole matrix at every grid point. -/
private theorem inBlock_eq (c : Dev nD) (t : Fin cfg0.N) :
    (iblk0 V c 4 t : Vec Ideal S64x64 .bf16) = (V c main_v22 : S64x64.Idx → EReal) := by
  funext j
  unfold iblk0
  rw [View.read_apply]
  show (V c main_v22 : S64x64.Idx → EReal) _ = _
  congr 1
  funext a
  apply Fin.ext
  obtain ⟨-, -, -, -, -, -, -, -, e0, e1, -⟩ := blockIndex t
  match a with
  | ⟨0, _⟩ => show win0_4.index t (0 : Fin 2) * 64 + 1 * (j 0).val = (j 0).val; rw [e0]; omega
  | ⟨1, _⟩ => show win0_4.index t (1 : Fin 2) * 64 + 1 * (j 1).val = (j 1).val; rw [e1]; omega

/-! ## From the blocks to the array -/

/-- The block written back at grid point t is rows 10000 t … 10000 t + 9999 of the edges' messages. -/
private theorem written_eq (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) (t : Fin cfg0.N) :
    (dat0 (F := Ideal) V c).flushed 5 t
      = ((cfg0.win 5).blk t).view.read (Elt Ideal)
          (Cert.Layers.edgeMsg (V c main_v13) (V c main_v14) (V c main_v18) (V c main_v22) et dr) := by
  show (cfg0.win 5).cut (grid0.coords t) ((dat0 V c).after 5 t) = _
  rw [after0_5]
  funext j
  obtain ⟨p, q, rfl⟩ : ∃ (p : Fin 10000) (q : Fin 64), j = ix2 p q := ⟨j 0, j 1, eq_ix2 j⟩
  rw [View.read_apply]
  have hN : cfg0.N = 120 := N_0
  have hp : 10000 * t.val + p.val < 1200000 := by have := t.isLt; have := p.isLt; omega
  -- entry (p, q) of the output's block at t sits at row 10000 t + p, column q of the array
  have hemb : ((cfg0.win 5).blk t).view.emb (ix2 p q) = ix2 (⟨10000 * t.val + p.val, hp⟩ : Fin 1200000) q := by
    funext a
    apply Fin.ext
    obtain ⟨-, -, -, -, -, -, -, -, -, -, e0, e1⟩ := blockIndex t
    match a with
    | ⟨0, _⟩ => show win0_5.index t (0 : Fin 2) * 10000 + 1 * p.val = 10000 * t.val + p.val; rw [e0]; omega
    | ⟨1, _⟩ => show win0_5.index t (1 : Fin 2) * 64 + 1 * q.val = q.val; rw [e1]; omega
  rw [hemb]
  show out0_5 (F := Ideal) (iblk0 V c 0 t) (iblk0 V c 1 t) (iblk0 V c 2 t) (iblk0 V c 3 t) (iblk0 V c 4 t) (ix2 p q)
    = Cert.Layers.edgeMsg (V c main_v13) (V c main_v14) (V c main_v18) (V c main_v22) et dr
        (ix2 (⟨10000 * t.val + p.val, hp⟩ : Fin 1200000) q)
  -- the body's entry with the row's mode read off the mode column, then each block read where it sits in its array
  refine (entry_of_mode (iblk0 V c 0 t) (iblk0 V c 1 t) (iblk0 V c 2 t) (iblk0 V c 3 t) (iblk0 V c 4 t) p q
    (et (ix1 (⟨10000 * t.val + p.val, hp⟩ : Fin 1200000))) (dr (ix1 (⟨10000 * t.val + p.val, hp⟩ : Fin 1200000)))
    (het _) (hdr _) ?_).trans ?_
  · rw [modeBlock_apply V c t p (⟨10000 * t.val + p.val, hp⟩ : Fin 1200000) rfl, hmode]
    rfl
  · unfold Cert.Layers.edgeMsg
    refine Finset.sum_congr rfl fun k _ => ?_
    rw [srcBlock_apply V c t p k (⟨10000 * t.val + p.val, hp⟩ : Fin 1200000) rfl, relBlock_eq V c t, outBlock_eq V c t,
      inBlock_eq V c t]

/-- The output's blocks tile the message array: row r lies in the block of grid point r / 10000. -/
private theorem covered (i : S1200000x64.Idx) :
    ∃ t : Fin cfg0.N, (cfg0.win 5).flush t = true ∧ i ∈ ((cfg0.win 5).blk t).view.set := by
  have hi0 : (i 0).val < 1200000 := (i 0).isLt
  have hi1 : (i 1).val < 64 := (i 1).isLt
  have hN : cfg0.N = 120 := N_0
  have ht : (i 0).val / 10000 < cfg0.N := by rw [hN]; omega
  refine ⟨⟨(i 0).val / 10000, ht⟩, flush0_5 _, ?_⟩
  show i ∈ ((View.whole main_v26).slice (win0_5.rect ⟨(i 0).val / 10000, ht⟩)).set
  rw [View.set_slice_whole, Rect.mem_set_unit]
  obtain ⟨-, -, -, -, -, -, -, -, -, -, e0, e1⟩ := blockIndex ⟨(i 0).val / 10000, ht⟩
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 64 ≤ (i 1).val
      ∧ (i 1).val < win0_5.index ⟨(i 0).val / 10000, ht⟩ (1 : Fin 2) * 64 + 64
    rw [e1]
    omega

/-- The message array the first edge call leaves: every edge's message, from the call's window arrays. -/
theorem final (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) :
    ((dat0 (F := Ideal) V c).arrAt 5 cfg0.N : S1200000x64.Idx → EReal)
      = Cert.Layers.edgeMsg (V c main_v13) (V c main_v14) (V c main_v18) (V c main_v22) et dr :=
  (dat0 (F := Ideal) V c).arrAt_eq_of_cover 5
    (Cert.Layers.edgeMsg (V c main_v13) (V c main_v14) (V c main_v18) (V c main_v22) et dr)
    (fun t _ => written_eq V c et dr het hdr hmode t) covered

end Cert.KernelIdeal.EdgeValue0

end
-- ==== Proof.EdgeRegion2.lean ====
/-
  The second edge call's result array as one function of its window arrays.
  Grid point t of 120 handles edges 10000 t … 10000 t + 9999: it reads those rows of the gathered source features and
  of the mode column, the whole relation table and both weight matrices, and writes those rows of the message array.
  When the mode column holds 2·type + direction with both labels in {0, 1}, the body's two selector factors are 0 or 1,
  so its blend of the two relation rows is the row of the edge's type and its blend of the two products is the product
  through the direction's matrix: the block written at t is the edges' messages, and the blocks tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue2

open Cert.KernelIdeal Cert.KernelIdeal.Gen Idealize.ShloMosaic Idealize.ShloMosaic.TcCoe Idealize.SL.Sem
open Idealize.ShloMosaic.ValueIdx
open Idealize.ShloMosaic.Pipeline (Dat)

/-! ## The float constants the body spells, as extended reals -/

private theorem two_bf16 : Ideal.ofBits .bf16 0x4000#16 = 2 := by
  simp [Ideal.ofBits, Ideal.ieee, -EReal.coe_mul]; norm_num; norm_cast
private theorem one_bf16 : Ideal.ofBits .bf16 0x3F80#16 = 1 := by
  simp [Ideal.ofBits, Ideal.ieee, -EReal.coe_mul]; norm_num
private theorem three_bf16 : Ideal.ofBits .bf16 0x4040#16 = 3 := by
  simp [Ideal.ofBits, Ideal.ieee, -EReal.coe_mul]; norm_num; norm_cast
private theorem one_f32 : Ideal.ofBits .f32 0x3F800000#32 = 1 := by
  simp [Ideal.ofBits, Ideal.ieee, -EReal.coe_mul]; norm_num

/-! ## The two selectors of a mode value -/

/-- The type selector of a mode value x: the comparison "x is at least 2" as a 0/1 number. -/
private def typeSel (x : EReal) : EReal := ((((Ideal.cmp .oge x 2).setWidth 32).toInt : ℝ) : EReal)

/-- The direction selector of a mode value x: "x is 1 or x is 3" as a 0/1 number. -/
private def dirSel (x : EReal) : EReal :=
  ((((IntOp.ori (Ideal.cmp .oeq x 1) (Ideal.cmp .oeq x 3)).setWidth 32).toInt : ℝ) : EReal)

private theorem selWord_true : (((BitVec.ofBool true).setWidth 32).toInt : ℤ) = 1 := by decide
private theorem selWord_false : (((BitVec.ofBool false).setWidth 32).toInt : ℤ) = 0 := by decide

/-- At a real mode value the type selector is 1 from 2 upwards and 0 below. -/
private theorem typeSel_coe (r : ℝ) : typeSel (r : EReal) = if 2 ≤ r then 1 else 0 := by
  unfold typeSel Ideal.cmp
  show ((((BitVec.ofBool (decide ((2 : EReal) ≤ (r : EReal)))).setWidth 32).toInt : ℝ) : EReal) = _
  have h2 : ((2 : EReal) ≤ (r : EReal)) ↔ 2 ≤ r := by
    rw [show (2 : EReal) = ((2 : ℝ) : EReal) from rfl, EReal.coe_le_coe_iff]
  by_cases h : 2 ≤ r
  · rw [if_pos h, decide_eq_true (h2.mpr h), selWord_true]; simp
  · rw [if_neg h, decide_eq_false (mt h2.mp h), selWord_false]; simp

/-- At a real mode value the direction selector is 1 at 1 and at 3 and 0 elsewhere. -/
private theorem dirSel_coe (r : ℝ) : dirSel (r : EReal) = if r = 1 ∨ r = 3 then 1 else 0 := by
  unfold dirSel Ideal.cmp
  show ((((IntOp.ori (BitVec.ofBool (decide ((r : EReal) = 1))) (BitVec.ofBool (decide ((r : EReal) = 3)))).setWidth 32).toInt : ℝ)
    : EReal) = _
  have h1 : ((r : EReal) = 1) ↔ r = 1 := by
    rw [show (1 : EReal) = ((1 : ℝ) : EReal) from rfl, EReal.coe_eq_coe_iff]
  have h3 : ((r : EReal) = 3) ↔ r = 3 := by
    rw [show (3 : EReal) = ((3 : ℝ) : EReal) from rfl, EReal.coe_eq_coe_iff]
  rw [decide_eq_decide.mpr h1, decide_eq_decide.mpr h3]
  by_cases e1 : r = 1 <;> by_cases e3 : r = 3
  · rw [if_pos (Or.inl e1), decide_eq_true e1, decide_eq_true e3]
    rw [show ((IntOp.ori (BitVec.ofBool true) (BitVec.ofBool true)).setWidth 32).toInt = 1 from by decide]; simp
  · rw [if_pos (Or.inl e1), decide_eq_true e1, decide_eq_false e3]
    rw [show ((IntOp.ori (BitVec.ofBool true) (BitVec.ofBool false)).setWidth 32).toInt = 1 from by decide]; simp
  · rw [if_pos (Or.inr e3), decide_eq_false e1, decide_eq_true e3]
    rw [show ((IntOp.ori (BitVec.ofBool false) (BitVec.ofBool true)).setWidth 32).toInt = 1 from by decide]; simp
  · rw [if_neg (fun h => h.elim e1 e3), decide_eq_false e1, decide_eq_false e3]
    rw [show ((IntOp.ori (BitVec.ofBool false) (BitVec.ofBool false)).setWidth 32).toInt = 0 from by decide]; simp

/-- A mode 2 a + b with both words 0 or 1 is one of 0, 1, 2, 3: its type selector says whether a is 1, its direction
    selector whether b is 1. -/
private theorem sel_of_mode (a b : BitVec 32) (ha : a = 0#32 ∨ a = 1#32) (hb : b = 0#32 ∨ b = 1#32) :
    typeSel ((((a * 2#32 + b).toInt : ℝ)) : EReal) = (if a = 1#32 then 1 else 0)
      ∧ dirSel ((((a * 2#32 + b).toInt : ℝ)) : EReal) = (if b = 1#32 then 1 else 0) := by
  rw [typeSel_coe, dirSel_coe]
  rcases ha with rfl | rfl <;> rcases hb with rfl | rfl
  · rw [show (0#32 * 2#32 + 0#32).toInt = 0 from by decide]; norm_num
  · rw [show (0#32 * 2#32 + 1#32).toInt = 1 from by decide]; norm_num
  · rw [show (1#32 * 2#32 + 0#32).toInt = 2 from by decide]; norm_num
  · rw [show (1#32 * 2#32 + 1#32).toInt = 3 from by decide]; norm_num

/-- On the extended reals 1 - 1 is 0 (both are finite). -/
private theorem one_sub_one : (1 : EReal) - 1 = 0 := by
  rw [show (1 : EReal) = ((1 : ℝ) : EReal) from rfl, ← EReal.coe_sub, sub_self, EReal.coe_zero]

/-! ## The body's values at an entry -/

private theorem zeroOff : (![0, 0] : Fin 2 → Nat) = fun _ => 0 := funext fun a => by fin_cases a <;> rfl

/-- A one-column array spread along a second axis reads, at (p, c), its entry in row p. -/
private theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mode column enters the arithmetic unchanged. -/
private theorem pay2_eq (v6 : Vec Ideal S10000x1 .bf16) : k2_pay2 v6 = v6 := by
  unfold k2_pay2; exact shapeCast_self _ _

/-- The direction selector column, row by row. -/
private theorem pay3_apply (v6 : Vec Ideal S10000x1 .bf16) (j : S10000x1.Idx) : k2_pay3 v6 j = dirSel (v6 j) := by
  unfold k2_pay3
  rw [pay2_eq]
  show ((((IntOp.ori (Ideal.cmp .oeq (v6 j) (Ideal.ofBits .bf16 0x3F80#16))
    (Ideal.cmp .oeq (v6 j) (Ideal.ofBits .bf16 0x4040#16))).setWidth 32).toInt : ℝ) : EReal) = _
  rw [one_bf16, three_bf16]
  rfl

/-- The type selector column, row by row. -/
private theorem typeCol_apply (v6 : Vec Ideal S10000x1 .bf16) (j : S10000x1.Idx) :
    (truncf .bf16 (sitofp (F := Ideal) .f32 (extui 32 (cmpf .oge (k2_pay2 v6)
        (broadcast S10000x1 (Scalar.ofBits (F := Ideal) .bf16 0x4000#16))) natLt_1_32)) bitsLt_bf16_f32
      : FVec Ideal S10000x1 .bf16) j = typeSel (v6 j) := by
  rw [pay2_eq]
  show ((((Ideal.cmp .oge (v6 j) (Ideal.ofBits .bf16 0x4000#16)).setWidth 32).toInt : ℝ) : EReal) = _
  rw [two_bf16]
  rfl

/-- The matrices' left factor at (p, k): the source feature less the selector-weighted blend of relation rows 1 and 0. -/
private theorem pay4_apply (v0 : Vec Ideal S10000x64 .bf16) (v2 : Vec Ideal S3x64 .bf16) (v6 : Vec Ideal S10000x1 .bf16)
    (p : Fin 10000) (k : Fin 64) :
    k2_pay4 v0 v2 v6 (ix2 p k)
      = v0 (ix2 p k) - (typeSel (v6 (ix2 p 0)) * v2 (ix2 1 k) + (1 - typeSel (v6 (ix2 p 0))) * v2 (ix2 0 k)) := by
  unfold k2_pay4
  simp only [shapeCast_self]
  rw [subf_apply, addf_apply, mulf_apply, mulf_apply]
  rw [colBroadcast_apply, colBroadcast_apply, broadcastTo_1b_ab_apply, broadcastTo_1b_ab_apply, subf_apply,
    typeCol_apply, broadcast_apply]
  rw [extractStridedSlice_apply ![1, 0] v2 slices_S3x64_o1_0_S1x64 (ix2 (0 : Fin 1) k) (ix2 (1 : Fin 3) k) (fun x => match x with
      | ⟨0, _⟩ => rfl
      | ⟨1, _⟩ => by show k.val = 0 + k.val; omega),
    extractStridedSlice_apply ![0, 0] v2 slices_S3x64_o0_0_S1x64 (ix2 (0 : Fin 1) k) (ix2 (0 : Fin 3) k) (fun x => match x with
      | ⟨0, _⟩ => rfl
      | ⟨1, _⟩ => by show k.val = 0 + k.val; omega)]
  rw [show (FloatOps.ofBits (F := Ideal) .bf16 0x3F80#16) = 1 from one_bf16]

/-- The product through the second matrix, weighted by the direction selector, at (p, q). -/
private theorem pay5_apply (v0 : Vec Ideal S10000x64 .bf16) (v2 : Vec Ideal S3x64 .bf16) (v6 : Vec Ideal S10000x1 .bf16)
    (v32 : Vec Ideal S64x64 .bf16) (p : Fin 10000) (q : Fin 64) :
    k2_pay5 v0 v2 v6 v32 (ix2 p q)
      = dirSel (v6 (ix2 p 0)) * ∑ k : Fin 64, k2_pay4 v0 v2 v6 (ix2 p k) * v32 (ix2 k q) := by
  unfold k2_pay5
  simp only [shapeCast_self]
  rw [mulf_apply, colBroadcast_apply, pay3_apply]
  exact congrArg (dirSel (v6 (ix2 p 0)) * ·)
    (Cert.LibPlainDot.matmul_zero_apply dot_S10000x64_S64x64_S10000x64_1_0_0_1_n_n_wf none (k2_pay4 v0 v2 v6) v32 p q)

/-- The product through the first matrix, weighted by one less the direction selector, at (p, q). -/
private theorem pay6_apply (v0 : Vec Ideal S10000x64 .bf16) (v2 : Vec Ideal S3x64 .bf16) (v6 : Vec Ideal S10000x1 .bf16)
    (v30 : Vec Ideal S64x64 .bf16) (p : Fin 10000) (q : Fin 64) :
    k2_pay6 v0 v2 v6 v30 (ix2 p q)
      = (1 - dirSel (v6 (ix2 p 0))) * ∑ k : Fin 64, k2_pay4 v0 v2 v6 (ix2 p k) * v30 (ix2 k q) := by
  unfold k2_pay6
  simp only [shapeCast_self]
  rw [mulf_apply, colBroadcast_apply, subf_apply, pay3_apply, broadcast_apply]
  rw [show (Scalar.ofBits (F := Ideal) .f32 0x3F800000#32) = 1 from one_f32]
  exact congrArg ((1 - dirSel (v6 (ix2 p 0))) * ·)
    (Cert.LibPlainDot.matmul_zero_apply dot_S10000x64_S64x64_S10000x64_1_0_0_1_n_n_wf none (k2_pay4 v0 v2 v6) v30 p q)

/-- What the body leaves in the output block at (p, q): the sum of the two weighted products. -/
private theorem out_entry (x0 : Vec Ideal S10000x64 .bf16) (x1 : Vec Ideal S10000x1 .bf16) (x2 : Vec Ideal S3x64 .bf16)
    (x3 x4 : Vec Ideal S64x64 .bf16) (p : Fin 10000) (q : Fin 64) :
    out2_5 (F := Ideal) x0 x1 x2 x3 x4 (ix2 p q) = k2_pay5 x0 x2 x1 x4 (ix2 p q) + k2_pay6 x0 x2 x1 x3 (ix2 p q) := by
  unfold out2_5
  rw [View.canon_unit_zero zeroOff]
  simp only [View.ld_unit_zero (S := S10000x64) zeroOff, View.ld_unit_zero (S := S3x64) zeroOff,
    View.ld_unit_zero (S := S10000x1) zeroOff, View.ld_unit_zero (S := S64x64) zeroOff]
  unfold k2_pay1
  rfl

/-- One entry of the block the body writes, when the row's mode is twice a type word plus a direction word, both 0 or 1:
    the row of source features less the type's relation row, through the direction's matrix. The selectors are 0 or 1,
    and 0 * x = 0, 1 * x = x, x + 0 = x hold for every extended real x, so nothing need be finite. -/
private theorem entry_of_mode (x0 : Vec Ideal S10000x64 .bf16) (x1 : Vec Ideal S10000x1 .bf16) (x2 : Vec Ideal S3x64 .bf16)
    (x3 x4 : Vec Ideal S64x64 .bf16) (p : Fin 10000) (q : Fin 64)
    (a b : BitVec 32) (ha : a = 0#32 ∨ a = 1#32) (hb : b = 0#32 ∨ b = 1#32)
    (hm : x1 (ix2 p 0) = ((((a * 2#32 + b).toInt : ℝ)) : EReal)) :
    out2_5 (F := Ideal) x0 x1 x2 x3 x4 (ix2 p q)
      = ∑ k : Fin 64, (x0 (ix2 p k) - x2 (ix2 (Cert.Layers.relRow a) k)) * (if b = 1#32 then x4 else x3) (ix2 k q) := by
  obtain ⟨ht, hd⟩ := sel_of_mode a b ha hb
  rw [out_entry, pay5_apply, pay6_apply]
  simp only [pay4_apply, hm, ht, hd]
  have n01 : ¬((0#32 : BitVec 32) = 1#32) := by decide
  rcases ha with rfl | rfl <;> rcases hb with rfl | rfl <;>
    simp only [Cert.Layers.relRow, if_neg n01, if_true, eq_self_iff_true, one_mul, zero_mul, add_zero, zero_add, sub_zero,
      one_sub_one]

/-! ## The windows' blocks as parts of their arrays -/

variable (V : (c : Dev nD) → (b : Ref sig .tc) → Buf (Elt Ideal) ((c : Thread nD τ).loc b))

/-- Where each window's block sits at grid point t: the two row-tiled inputs and the output at block row t, the relation
    table and the two matrices whole. -/
private theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the source-feature block at t is row 10000 t + p of the source-feature array. -/
private theorem srcBlock_apply (c : Dev nD) (t : Fin cfg2.N) (p : Fin 10000) (k : Fin 64) (e : Fin 1200000)
    (he : e.val = 10000 * t.val + p.val) :
    (iblk2 V c 0 t : Vec Ideal S10000x64 .bf16) (ix2 p k) = (V c main_v46 : S1200000x64.Idx → EReal) (ix2 e k) := by
  unfold iblk2
  rw [View.read_apply]
  show (V c main_v46 : S1200000x64.Idx → EReal) _ = _
  congr 1
  funext a
  apply Fin.ext
  match a with
  | ⟨0, _⟩ => show win2_0.index t (0 : Fin 2) * 10000 + 1 * p.val = e.val; rw [(blockIndex t).1, he]; omega
  | ⟨1, _⟩ => show win2_0.index t (1 : Fin 2) * 64 + 1 * k.val = k.val; rw [(blockIndex t).2.1]; omega

/-- Row p of the mode block at t is row 10000 t + p of the mode column. -/
private theorem modeBlock_apply (c : Dev nD) (t : Fin cfg2.N) (p : Fin 10000) (e : Fin 1200000)
    (he : e.val = 10000 * t.val + p.val) :
    (iblk2 V c 1 t : Vec Ideal S10000x1 .bf16) (ix2 p (0 : Fin 1))
      = (V c main_v5 : S1200000x1.Idx → EReal) (ix2 e (0 : Fin 1)) := by
  unfold iblk2
  rw [View.read_apply]
  show (V c main_v5 : S1200000x1.Idx → EReal) _ = _
  congr 1
  funext a
  apply Fin.ext
  match a with
  | ⟨0, _⟩ => show win2_1.index t (0 : Fin 2) * 10000 + 1 * p.val = e.val; rw [(blockIndex t).2.2.1, he]; omega
  | ⟨1, _⟩ => show win2_1.index t (1 : Fin 2) * 1 + 1 * 0 = 0; rw [(blockIndex t).2.2.2.1]

/-- The relation table's block is the whole table at every grid point. -/
private theorem relBlock_eq (c : Dev nD) (t : Fin cfg2.N) :
    (iblk2 V c 2 t : Vec Ideal S3x64 .bf16) = (V c main_v47 : S3x64.Idx → EReal) := by
  funext j
  unfold iblk2
  rw [View.read_apply]
  show (V c main_v47 : S3x64.Idx → EReal) _ = _
  congr 1
  funext a
  apply Fin.ext
  obtain ⟨-, -, -, -, e0, e1, -⟩ := blockIndex t
  match a with
  | ⟨0, _⟩ => show win2_2.index t (0 : Fin 2) * 3 + 1 * (j 0).val = (j 0).val; rw [e0]; omega
  | ⟨1, _⟩ => show win2_2.index t (1 : Fin 2) * 64 + 1 * (j 1).val = (j 1).val; rw [e1]; omega

/-- The first matrix's block is the whole matrix at every grid point. -/
private theorem outBlock_eq (c : Dev nD) (t : Fin cfg2.N) :
    (iblk2 V c 3 t : Vec Ideal S64x64 .bf16) = (V c main_v51 : S64x64.Idx → EReal) := by
  funext j
  unfold iblk2
  rw [View.read_apply]
  show (V c main_v51 : S64x64.Idx → EReal) _ = _
  congr 1
  funext a
  apply Fin.ext
  obtain ⟨-, -, -, -, -, -, e0, e1, -⟩ := blockIndex t
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

/-- The second matrix's block is the whole matrix at every grid point. -/
private theorem inBlock_eq (c : Dev nD) (t : Fin cfg2.N) :
    (iblk2 V c 4 t : Vec Ideal S64x64 .bf16) = (V c main_v55 : S64x64.Idx → EReal) := by
  funext j
  unfold iblk2
  rw [View.read_apply]
  show (V c main_v55 : S64x64.Idx → EReal) _ = _
  congr 1
  funext a
  apply Fin.ext
  obtain ⟨-, -, -, -, -, -, -, -, e0, e1, -⟩ := blockIndex t
  match a with
  | ⟨0, _⟩ => show win2_4.index t (0 : Fin 2) * 64 + 1 * (j 0).val = (j 0).val; rw [e0]; omega
  | ⟨1, _⟩ => show win2_4.index t (1 : Fin 2) * 64 + 1 * (j 1).val = (j 1).val; rw [e1]; omega

/-! ## From the blocks to the array -/

/-- The block written back at grid point t is rows 10000 t … 10000 t + 9999 of the edges' messages. -/
private theorem written_eq (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) (t : Fin cfg2.N) :
    (dat2 (F := Ideal) V c).flushed 5 t
      = ((cfg2.win 5).blk t).view.read (Elt Ideal)
          (Cert.Layers.edgeMsg (V c main_v46) (V c main_v47) (V c main_v51) (V c main_v55) et dr) := by
  show (cfg2.win 5).cut (grid2.coords t) ((dat2 V c).after 5 t) = _
  rw [after2_5]
  funext j
  obtain ⟨p, q, rfl⟩ : ∃ (p : Fin 10000) (q : Fin 64), j = ix2 p q := ⟨j 0, j 1, eq_ix2 j⟩
  rw [View.read_apply]
  have hN : cfg2.N = 120 := N_2
  have hp : 10000 * t.val + p.val < 1200000 := by have := t.isLt; have := p.isLt; omega
  -- entry (p, q) of the output's block at t sits at row 10000 t + p, column q of the array
  have hemb : ((cfg2.win 5).blk t).view.emb (ix2 p q) = ix2 (⟨10000 * t.val + p.val, hp⟩ : Fin 1200000) q := by
    funext a
    apply Fin.ext
    obtain ⟨-, -, -, -, -, -, -, -, -, -, e0, e1⟩ := blockIndex t
    match a with
    | ⟨0, _⟩ => show win2_5.index t (0 : Fin 2) * 10000 + 1 * p.val = 10000 * t.val + p.val; rw [e0]; omega
    | ⟨1, _⟩ => show win2_5.index t (1 : Fin 2) * 64 + 1 * q.val = q.val; rw [e1]; omega
  rw [hemb]
  show out2_5 (F := Ideal) (iblk2 V c 0 t) (iblk2 V c 1 t) (iblk2 V c 2 t) (iblk2 V c 3 t) (iblk2 V c 4 t) (ix2 p q)
    = Cert.Layers.edgeMsg (V c main_v46) (V c main_v47) (V c main_v51) (V c main_v55) et dr
        (ix2 (⟨10000 * t.val + p.val, hp⟩ : Fin 1200000) q)
  -- the body's entry with the row's mode read off the mode column, then each block read where it sits in its array
  refine (entry_of_mode (iblk2 V c 0 t) (iblk2 V c 1 t) (iblk2 V c 2 t) (iblk2 V c 3 t) (iblk2 V c 4 t) p q
    (et (ix1 (⟨10000 * t.val + p.val, hp⟩ : Fin 1200000))) (dr (ix1 (⟨10000 * t.val + p.val, hp⟩ : Fin 1200000)))
    (het _) (hdr _) ?_).trans ?_
  · rw [modeBlock_apply V c t p (⟨10000 * t.val + p.val, hp⟩ : Fin 1200000) rfl, hmode]
    rfl
  · unfold Cert.Layers.edgeMsg
    refine Finset.sum_congr rfl fun k _ => ?_
    rw [srcBlock_apply V c t p k (⟨10000 * t.val + p.val, hp⟩ : Fin 1200000) rfl, relBlock_eq V c t, outBlock_eq V c t,
      inBlock_eq V c t]

/-- The output's blocks tile the message array: row r lies in the block of grid point r / 10000. -/
private theorem covered (i : S1200000x64.Idx) :
    ∃ t : Fin cfg2.N, (cfg2.win 5).flush t = true ∧ i ∈ ((cfg2.win 5).blk t).view.set := by
  have hi0 : (i 0).val < 1200000 := (i 0).isLt
  have hi1 : (i 1).val < 64 := (i 1).isLt
  have hN : cfg2.N = 120 := N_2
  have ht : (i 0).val / 10000 < cfg2.N := by rw [hN]; omega
  refine ⟨⟨(i 0).val / 10000, ht⟩, flush2_5 _, ?_⟩
  show i ∈ ((View.whole main_v59).slice (win2_5.rect ⟨(i 0).val / 10000, ht⟩)).set
  rw [View.set_slice_whole, Rect.mem_set_unit]
  obtain ⟨-, -, -, -, -, -, -, -, -, -, e0, e1⟩ := blockIndex ⟨(i 0).val / 10000, ht⟩
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e1]
    omega

/-- The message array the second edge call leaves: every edge's message, from the call's window arrays. -/
theorem final (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) :
    ((dat2 (F := Ideal) V c).arrAt 5 cfg2.N : S1200000x64.Idx → EReal)
      = Cert.Layers.edgeMsg (V c main_v46) (V c main_v47) (V c main_v51) (V c main_v55) et dr :=
  (dat2 (F := Ideal) V c).arrAt_eq_of_cover 5
    (Cert.Layers.edgeMsg (V c main_v46) (V c main_v47) (V c main_v51) (V c main_v55) et dr)
    (fun t _ => written_eq V c et dr het hdr hmode t) covered

end Cert.KernelIdeal.EdgeValue2

end
-- ==== Proof.EdgeRegion4.lean ====
/-
  The third edge call's result array as one function of its window arrays.
  Grid point t of 120 handles edges 10000 t … 10000 t + 9999: it reads those rows of the gathered source features and
  of the mode column, the whole relation table and both weight matrices, and writes those rows of the message array.
  When the mode column holds 2·type + direction with both labels in {0, 1}, the body's two selector factors are 0 or 1,
  so its blend of the two relation rows is the row of the edge's type and its blend of the two products is the product
  through the direction's matrix: the block written at t is the edges' messages, and the blocks tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue4

open Cert.KernelIdeal Cert.KernelIdeal.Gen Idealize.ShloMosaic Idealize.ShloMosaic.TcCoe Idealize.SL.Sem
open Idealize.ShloMosaic.ValueIdx
open Idealize.ShloMosaic.Pipeline (Dat)

/-! ## The float constants the body spells, as extended reals -/

private theorem two_bf16 : Ideal.ofBits .bf16 0x4000#16 = 2 := by
  simp [Ideal.ofBits, Ideal.ieee, -EReal.coe_mul]; norm_num; norm_cast
private theorem one_bf16 : Ideal.ofBits .bf16 0x3F80#16 = 1 := by
  simp [Ideal.ofBits, Ideal.ieee, -EReal.coe_mul]; norm_num
private theorem three_bf16 : Ideal.ofBits .bf16 0x4040#16 = 3 := by
  simp [Ideal.ofBits, Ideal.ieee, -EReal.coe_mul]; norm_num; norm_cast
private theorem one_f32 : Ideal.ofBits .f32 0x3F800000#32 = 1 := by
  simp [Ideal.ofBits, Ideal.ieee, -EReal.coe_mul]; norm_num

/-! ## The two selectors of a mode value -/

/-- The type selector of a mode value x: the comparison "x is at least 2" as a 0/1 number. -/
private def typeSel (x : EReal) : EReal := ((((Ideal.cmp .oge x 2).setWidth 32).toInt : ℝ) : EReal)

/-- The direction selector of a mode value x: "x is 1 or x is 3" as a 0/1 number. -/
private def dirSel (x : EReal) : EReal :=
  ((((IntOp.ori (Ideal.cmp .oeq x 1) (Ideal.cmp .oeq x 3)).setWidth 32).toInt : ℝ) : EReal)

private theorem selWord_true : (((BitVec.ofBool true).setWidth 32).toInt : ℤ) = 1 := by decide
private theorem selWord_false : (((BitVec.ofBool false).setWidth 32).toInt : ℤ) = 0 := by decide

/-- At a real mode value the type selector is 1 from 2 upwards and 0 below. -/
private theorem typeSel_coe (r : ℝ) : typeSel (r : EReal) = if 2 ≤ r then 1 else 0 := by
  unfold typeSel Ideal.cmp
  show ((((BitVec.ofBool (decide ((2 : EReal) ≤ (r : EReal)))).setWidth 32).toInt : ℝ) : EReal) = _
  have h2 : ((2 : EReal) ≤ (r : EReal)) ↔ 2 ≤ r := by
    rw [show (2 : EReal) = ((2 : ℝ) : EReal) from rfl, EReal.coe_le_coe_iff]
  by_cases h : 2 ≤ r
  · rw [if_pos h, decide_eq_true (h2.mpr h), selWord_true]; simp
  · rw [if_neg h, decide_eq_false (mt h2.mp h), selWord_false]; simp

/-- At a real mode value the direction selector is 1 at 1 and at 3 and 0 elsewhere. -/
private theorem dirSel_coe (r : ℝ) : dirSel (r : EReal) = if r = 1 ∨ r = 3 then 1 else 0 := by
  unfold dirSel Ideal.cmp
  show ((((IntOp.ori (BitVec.ofBool (decide ((r : EReal) = 1))) (BitVec.ofBool (decide ((r : EReal) = 3)))).setWidth 32).toInt : ℝ)
    : EReal) = _
  have h1 : ((r : EReal) = 1) ↔ r = 1 := by
    rw [show (1 : EReal) = ((1 : ℝ) : EReal) from rfl, EReal.coe_eq_coe_iff]
  have h3 : ((r : EReal) = 3) ↔ r = 3 := by
    rw [show (3 : EReal) = ((3 : ℝ) : EReal) from rfl, EReal.coe_eq_coe_iff]
  rw [decide_eq_decide.mpr h1, decide_eq_decide.mpr h3]
  by_cases e1 : r = 1 <;> by_cases e3 : r = 3
  · rw [if_pos (Or.inl e1), decide_eq_true e1, decide_eq_true e3]
    rw [show ((IntOp.ori (BitVec.ofBool true) (BitVec.ofBool true)).setWidth 32).toInt = 1 from by decide]; simp
  · rw [if_pos (Or.inl e1), decide_eq_true e1, decide_eq_false e3]
    rw [show ((IntOp.ori (BitVec.ofBool true) (BitVec.ofBool false)).setWidth 32).toInt = 1 from by decide]; simp
  · rw [if_pos (Or.inr e3), decide_eq_false e1, decide_eq_true e3]
    rw [show ((IntOp.ori (BitVec.ofBool false) (BitVec.ofBool true)).setWidth 32).toInt = 1 from by decide]; simp
  · rw [if_neg (fun h => h.elim e1 e3), decide_eq_false e1, decide_eq_false e3]
    rw [show ((IntOp.ori (BitVec.ofBool false) (BitVec.ofBool false)).setWidth 32).toInt = 0 from by decide]; simp

/-- A mode 2 a + b with both words 0 or 1 is one of 0, 1, 2, 3: its type selector says whether a is 1, its direction
    selector whether b is 1. -/
private theorem sel_of_mode (a b : BitVec 32) (ha : a = 0#32 ∨ a = 1#32) (hb : b = 0#32 ∨ b = 1#32) :
    typeSel ((((a * 2#32 + b).toInt : ℝ)) : EReal) = (if a = 1#32 then 1 else 0)
      ∧ dirSel ((((a * 2#32 + b).toInt : ℝ)) : EReal) = (if b = 1#32 then 1 else 0) := by
  rw [typeSel_coe, dirSel_coe]
  rcases ha with rfl | rfl <;> rcases hb with rfl | rfl
  · rw [show (0#32 * 2#32 + 0#32).toInt = 0 from by decide]; norm_num
  · rw [show (0#32 * 2#32 + 1#32).toInt = 1 from by decide]; norm_num
  · rw [show (1#32 * 2#32 + 0#32).toInt = 2 from by decide]; norm_num
  · rw [show (1#32 * 2#32 + 1#32).toInt = 3 from by decide]; norm_num

/-- On the extended reals 1 - 1 is 0 (both are finite). -/
private theorem one_sub_one : (1 : EReal) - 1 = 0 := by
  rw [show (1 : EReal) = ((1 : ℝ) : EReal) from rfl, ← EReal.coe_sub, sub_self, EReal.coe_zero]

/-! ## The body's values at an entry -/

private theorem zeroOff : (![0, 0] : Fin 2 → Nat) = fun _ => 0 := funext fun a => by fin_cases a <;> rfl

/-- A one-column array spread along a second axis reads, at (p, c), its entry in row p. -/
private theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mode column enters the arithmetic unchanged. -/
private theorem pay2_eq (v6 : Vec Ideal S10000x1 .bf16) : k4_pay2 v6 = v6 := by
  unfold k4_pay2; exact shapeCast_self _ _

/-- The direction selector column, row by row. -/
private theorem pay3_apply (v6 : Vec Ideal S10000x1 .bf16) (j : S10000x1.Idx) : k4_pay3 v6 j = dirSel (v6 j) := by
  unfold k4_pay3
  rw [pay2_eq]
  show ((((IntOp.ori (Ideal.cmp .oeq (v6 j) (Ideal.ofBits .bf16 0x3F80#16))
    (Ideal.cmp .oeq (v6 j) (Ideal.ofBits .bf16 0x4040#16))).setWidth 32).toInt : ℝ) : EReal) = _
  rw [one_bf16, three_bf16]
  rfl

/-- The type selector column, row by row. -/
private theorem typeCol_apply (v6 : Vec Ideal S10000x1 .bf16) (j : S10000x1.Idx) :
    (truncf .bf16 (sitofp (F := Ideal) .f32 (extui 32 (cmpf .oge (k4_pay2 v6)
        (broadcast S10000x1 (Scalar.ofBits (F := Ideal) .bf16 0x4000#16))) natLt_1_32)) bitsLt_bf16_f32
      : FVec Ideal S10000x1 .bf16) j = typeSel (v6 j) := by
  rw [pay2_eq]
  show ((((Ideal.cmp .oge (v6 j) (Ideal.ofBits .bf16 0x4000#16)).setWidth 32).toInt : ℝ) : EReal) = _
  rw [two_bf16]
  rfl

/-- The matrices' left factor at (p, k): the source feature less the selector-weighted blend of relation rows 1 and 0. -/
private theorem pay4_apply (v0 : Vec Ideal S10000x64 .bf16) (v2 : Vec Ideal S3x64 .bf16) (v6 : Vec Ideal S10000x1 .bf16)
    (p : Fin 10000) (k : Fin 64) :
    k4_pay4 v0 v2 v6 (ix2 p k)
      = v0 (ix2 p k) - (typeSel (v6 (ix2 p 0)) * v2 (ix2 1 k) + (1 - typeSel (v6 (ix2 p 0))) * v2 (ix2 0 k)) := by
  unfold k4_pay4
  simp only [shapeCast_self]
  rw [subf_apply, addf_apply, mulf_apply, mulf_apply]
  rw [colBroadcast_apply, colBroadcast_apply, broadcastTo_1b_ab_apply, broadcastTo_1b_ab_apply, subf_apply,
    typeCol_apply, broadcast_apply]
  rw [extractStridedSlice_apply ![1, 0] v2 slices_S3x64_o1_0_S1x64 (ix2 (0 : Fin 1) k) (ix2 (1 : Fin 3) k) (fun x => match x with
      | ⟨0, _⟩ => rfl
      | ⟨1, _⟩ => by show k.val = 0 + k.val; omega),
    extractStridedSlice_apply ![0, 0] v2 slices_S3x64_o0_0_S1x64 (ix2 (0 : Fin 1) k) (ix2 (0 : Fin 3) k) (fun x => match x with
      | ⟨0, _⟩ => rfl
      | ⟨1, _⟩ => by show k.val = 0 + k.val; omega)]
  rw [show (FloatOps.ofBits (F := Ideal) .bf16 0x3F80#16) = 1 from one_bf16]

/-- The product through the second matrix, weighted by the direction selector, at (p, q). -/
private theorem pay5_apply (v0 : Vec Ideal S10000x64 .bf16) (v2 : Vec Ideal S3x64 .bf16) (v6 : Vec Ideal S10000x1 .bf16)
    (v32 : Vec Ideal S64x64 .bf16) (p : Fin 10000) (q : Fin 64) :
    k4_pay5 v0 v2 v6 v32 (ix2 p q)
      = dirSel (v6 (ix2 p 0)) * ∑ k : Fin 64, k4_pay4 v0 v2 v6 (ix2 p k) * v32 (ix2 k q) := by
  unfold k4_pay5
  simp only [shapeCast_self]
  rw [mulf_apply, colBroadcast_apply, pay3_apply]
  exact congrArg (dirSel (v6 (ix2 p 0)) * ·)
    (Cert.LibPlainDot.matmul_zero_apply dot_S10000x64_S64x64_S10000x64_1_0_0_1_n_n_wf none (k4_pay4 v0 v2 v6) v32 p q)

/-- The product through the first matrix, weighted by one less the direction selector, at (p, q). -/
private theorem pay6_apply (v0 : Vec Ideal S10000x64 .bf16) (v2 : Vec Ideal S3x64 .bf16) (v6 : Vec Ideal S10000x1 .bf16)
    (v30 : Vec Ideal S64x64 .bf16) (p : Fin 10000) (q : Fin 64) :
    k4_pay6 v0 v2 v6 v30 (ix2 p q)
      = (1 - dirSel (v6 (ix2 p 0))) * ∑ k : Fin 64, k4_pay4 v0 v2 v6 (ix2 p k) * v30 (ix2 k q) := by
  unfold k4_pay6
  simp only [shapeCast_self]
  rw [mulf_apply, colBroadcast_apply, subf_apply, pay3_apply, broadcast_apply]
  rw [show (Scalar.ofBits (F := Ideal) .f32 0x3F800000#32) = 1 from one_f32]
  exact congrArg ((1 - dirSel (v6 (ix2 p 0))) * ·)
    (Cert.LibPlainDot.matmul_zero_apply dot_S10000x64_S64x64_S10000x64_1_0_0_1_n_n_wf none (k4_pay4 v0 v2 v6) v30 p q)

/-- What the body leaves in the output block at (p, q): the sum of the two weighted products. -/
private theorem out_entry (x0 : Vec Ideal S10000x64 .bf16) (x1 : Vec Ideal S10000x1 .bf16) (x2 : Vec Ideal S3x64 .bf16)
    (x3 x4 : Vec Ideal S64x64 .bf16) (p : Fin 10000) (q : Fin 64) :
    out4_5 (F := Ideal) x0 x1 x2 x3 x4 (ix2 p q) = k4_pay5 x0 x2 x1 x4 (ix2 p q) + k4_pay6 x0 x2 x1 x3 (ix2 p q) := by
  unfold out4_5
  rw [View.canon_unit_zero zeroOff]
  simp only [View.ld_unit_zero (S := S10000x64) zeroOff, View.ld_unit_zero (S := S3x64) zeroOff,
    View.ld_unit_zero (S := S10000x1) zeroOff, View.ld_unit_zero (S := S64x64) zeroOff]
  unfold k4_pay1
  rfl

/-- One entry of the block the body writes, when the row's mode is twice a type word plus a direction word, both 0 or 1:
    the row of source features less the type's relation row, through the direction's matrix. The selectors are 0 or 1,
    and 0 * x = 0, 1 * x = x, x + 0 = x hold for every extended real x, so nothing need be finite. -/
private theorem entry_of_mode (x0 : Vec Ideal S10000x64 .bf16) (x1 : Vec Ideal S10000x1 .bf16) (x2 : Vec Ideal S3x64 .bf16)
    (x3 x4 : Vec Ideal S64x64 .bf16) (p : Fin 10000) (q : Fin 64)
    (a b : BitVec 32) (ha : a = 0#32 ∨ a = 1#32) (hb : b = 0#32 ∨ b = 1#32)
    (hm : x1 (ix2 p 0) = ((((a * 2#32 + b).toInt : ℝ)) : EReal)) :
    out4_5 (F := Ideal) x0 x1 x2 x3 x4 (ix2 p q)
      = ∑ k : Fin 64, (x0 (ix2 p k) - x2 (ix2 (Cert.Layers.relRow a) k)) * (if b = 1#32 then x4 else x3) (ix2 k q) := by
  obtain ⟨ht, hd⟩ := sel_of_mode a b ha hb
  rw [out_entry, pay5_apply, pay6_apply]
  simp only [pay4_apply, hm, ht, hd]
  have n01 : ¬((0#32 : BitVec 32) = 1#32) := by decide
  rcases ha with rfl | rfl <;> rcases hb with rfl | rfl <;>
    simp only [Cert.Layers.relRow, if_neg n01, if_true, eq_self_iff_true, one_mul, zero_mul, add_zero, zero_add, sub_zero,
      one_sub_one]

/-! ## The windows' blocks as parts of their arrays -/

variable (V : (c : Dev nD) → (b : Ref sig .tc) → Buf (Elt Ideal) ((c : Thread nD τ).loc b))

/-- Where each window's block sits at grid point t: the two row-tiled inputs and the output at block row t, the relation
    table and the two matrices whole. -/
private theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of the source-feature block at t is row 10000 t + p of the source-feature array. -/
private theorem srcBlock_apply (c : Dev nD) (t : Fin cfg4.N) (p : Fin 10000) (k : Fin 64) (e : Fin 1200000)
    (he : e.val = 10000 * t.val + p.val) :
    (iblk4 V c 0 t : Vec Ideal S10000x64 .bf16) (ix2 p k) = (V c main_v79 : S1200000x64.Idx → EReal) (ix2 e k) := by
  unfold iblk4
  rw [View.read_apply]
  show (V c main_v79 : S1200000x64.Idx → EReal) _ = _
  congr 1
  funext a
  apply Fin.ext
  match a with
  | ⟨0, _⟩ => show win4_0.index t (0 : Fin 2) * 10000 + 1 * p.val = e.val; rw [(blockIndex t).1, he]; omega
  | ⟨1, _⟩ => show win4_0.index t (1 : Fin 2) * 64 + 1 * k.val = k.val; rw [(blockIndex t).2.1]; omega

/-- Row p of the mode block at t is row 10000 t + p of the mode column. -/
private theorem modeBlock_apply (c : Dev nD) (t : Fin cfg4.N) (p : Fin 10000) (e : Fin 1200000)
    (he : e.val = 10000 * t.val + p.val) :
    (iblk4 V c 1 t : Vec Ideal S10000x1 .bf16) (ix2 p (0 : Fin 1))
      = (V c main_v5 : S1200000x1.Idx → EReal) (ix2 e (0 : Fin 1)) := by
  unfold iblk4
  rw [View.read_apply]
  show (V c main_v5 : S1200000x1.Idx → EReal) _ = _
  congr 1
  funext a
  apply Fin.ext
  match a with
  | ⟨0, _⟩ => show win4_1.index t (0 : Fin 2) * 10000 + 1 * p.val = e.val; rw [(blockIndex t).2.2.1, he]; omega
  | ⟨1, _⟩ => show win4_1.index t (1 : Fin 2) * 1 + 1 * 0 = 0; rw [(blockIndex t).2.2.2.1]

/-- The relation table's block is the whole table at every grid point. -/
private theorem relBlock_eq (c : Dev nD) (t : Fin cfg4.N) :
    (iblk4 V c 2 t : Vec Ideal S3x64 .bf16) = (V c main_v80 : S3x64.Idx → EReal) := by
  funext j
  unfold iblk4
  rw [View.read_apply]
  show (V c main_v80 : S3x64.Idx → EReal) _ = _
  congr 1
  funext a
  apply Fin.ext
  obtain ⟨-, -, -, -, e0, e1, -⟩ := blockIndex t
  match a with
  | ⟨0, _⟩ => show win4_2.index t (0 : Fin 2) * 3 + 1 * (j 0).val = (j 0).val; rw [e0]; omega
  | ⟨1, _⟩ => show win4_2.index t (1 : Fin 2) * 64 + 1 * (j 1).val = (j 1).val; rw [e1]; omega

/-- The first matrix's block is the whole matrix at every grid point. -/
private theorem outBlock_eq (c : Dev nD) (t : Fin cfg4.N) :
    (iblk4 V c 3 t : Vec Ideal S64x64 .bf16) = (V c main_v84 : S64x64.Idx → EReal) := by
  funext j
  unfold iblk4
  rw [View.read_apply]
  show (V c main_v84 : S64x64.Idx → EReal) _ = _
  congr 1
  funext a
  apply Fin.ext
  obtain ⟨-, -, -, -, -, -, e0, e1, -⟩ := blockIndex t
  match a with
  | ⟨0, _⟩ => show win4_3.index t (0 : Fin 2) * 64 + 1 * (j 0).val = (j 0).val; rw [e0]; omega
  | ⟨1, _⟩ => show win4_3.index t (1 : Fin 2) * 64 + 1 * (j 1).val = (j 1).val; rw [e1]; omega

/-- The second matrix's block is the whole matrix at every grid point. -/
private theorem inBlock_eq (c : Dev nD) (t : Fin cfg4.N) :
    (iblk4 V c 4 t : Vec Ideal S64x64 .bf16) = (V c main_v88 : S64x64.Idx → EReal) := by
  funext j
  unfold iblk4
  rw [View.read_apply]
  show (V c main_v88 : S64x64.Idx → EReal) _ = _
  congr 1
  funext a
  apply Fin.ext
  obtain ⟨-, -, -, -, -, -, -, -, e0, e1, -⟩ := blockIndex t
  match a with
  | ⟨0, _⟩ => show win4_4.index t (0 : Fin 2) * 64 + 1 * (j 0).val = (j 0).val; rw [e0]; omega
  | ⟨1, _⟩ => show win4_4.index t (1 : Fin 2) * 64 + 1 * (j 1).val = (j 1).val; rw [e1]; omega

/-! ## From the blocks to the array -/

/-- The block written back at grid point t is rows 10000 t … 10000 t + 9999 of the edges' messages. -/
private theorem written_eq (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) (t : Fin cfg4.N) :
    (dat4 (F := Ideal) V c).flushed 5 t
      = ((cfg4.win 5).blk t).view.read (Elt Ideal)
          (Cert.Layers.edgeMsg (V c main_v79) (V c main_v80) (V c main_v84) (V c main_v88) et dr) := by
  show (cfg4.win 5).cut (grid4.coords t) ((dat4 V c).after 5 t) = _
  rw [after4_5]
  funext j
  obtain ⟨p, q, rfl⟩ : ∃ (p : Fin 10000) (q : Fin 64), j = ix2 p q := ⟨j 0, j 1, eq_ix2 j⟩
  rw [View.read_apply]
  have hN : cfg4.N = 120 := N_4
  have hp : 10000 * t.val + p.val < 1200000 := by have := t.isLt; have := p.isLt; omega
  -- entry (p, q) of the output's block at t sits at row 10000 t + p, column q of the array
  have hemb : ((cfg4.win 5).blk t).view.emb (ix2 p q) = ix2 (⟨10000 * t.val + p.val, hp⟩ : Fin 1200000) q := by
    funext a
    apply Fin.ext
    obtain ⟨-, -, -, -, -, -, -, -, -, -, e0, e1⟩ := blockIndex t
    match a with
    | ⟨0, _⟩ => show win4_5.index t (0 : Fin 2) * 10000 + 1 * p.val = 10000 * t.val + p.val; rw [e0]; omega
    | ⟨1, _⟩ => show win4_5.index t (1 : Fin 2) * 64 + 1 * q.val = q.val; rw [e1]; omega
  rw [hemb]
  show out4_5 (F := Ideal) (iblk4 V c 0 t) (iblk4 V c 1 t) (iblk4 V c 2 t) (iblk4 V c 3 t) (iblk4 V c 4 t) (ix2 p q)
    = Cert.Layers.edgeMsg (V c main_v79) (V c main_v80) (V c main_v84) (V c main_v88) et dr
        (ix2 (⟨10000 * t.val + p.val, hp⟩ : Fin 1200000) q)
  -- the body's entry with the row's mode read off the mode column, then each block read where it sits in its array
  refine (entry_of_mode (iblk4 V c 0 t) (iblk4 V c 1 t) (iblk4 V c 2 t) (iblk4 V c 3 t) (iblk4 V c 4 t) p q
    (et (ix1 (⟨10000 * t.val + p.val, hp⟩ : Fin 1200000))) (dr (ix1 (⟨10000 * t.val + p.val, hp⟩ : Fin 1200000)))
    (het _) (hdr _) ?_).trans ?_
  · rw [modeBlock_apply V c t p (⟨10000 * t.val + p.val, hp⟩ : Fin 1200000) rfl, hmode]
    rfl
  · unfold Cert.Layers.edgeMsg
    refine Finset.sum_congr rfl fun k _ => ?_
    rw [srcBlock_apply V c t p k (⟨10000 * t.val + p.val, hp⟩ : Fin 1200000) rfl, relBlock_eq V c t, outBlock_eq V c t,
      inBlock_eq V c t]

/-- The output's blocks tile the message array: row r lies in the block of grid point r / 10000. -/
private theorem covered (i : S1200000x64.Idx) :
    ∃ t : Fin cfg4.N, (cfg4.win 5).flush t = true ∧ i ∈ ((cfg4.win 5).blk t).view.set := by
  have hi0 : (i 0).val < 1200000 := (i 0).isLt
  have hi1 : (i 1).val < 64 := (i 1).isLt
  have hN : cfg4.N = 120 := N_4
  have ht : (i 0).val / 10000 < cfg4.N := by rw [hN]; omega
  refine ⟨⟨(i 0).val / 10000, ht⟩, flush4_5 _, ?_⟩
  show i ∈ ((View.whole main_v92).slice (win4_5.rect ⟨(i 0).val / 10000, ht⟩)).set
  rw [View.set_slice_whole, Rect.mem_set_unit]
  obtain ⟨-, -, -, -, -, -, -, -, -, -, e0, e1⟩ := blockIndex ⟨(i 0).val / 10000, ht⟩
  intro a
  match a with
  | ⟨0, _⟩ =>
    show win4_5.index ⟨(i 0).val / 10000, ht⟩ (0 : Fin 2) * 10000 ≤ (i 0).val
      ∧ (i 0).val < win4_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win4_5.index ⟨(i 0).val / 10000, ht⟩ (1 : Fin 2) * 64 ≤ (i 1).val
      ∧ (i 1).val < win4_5.index ⟨(i 0).val / 10000, ht⟩ (1 : Fin 2) * 64 + 64
    rw [e1]
    omega

/-- The message array the third edge call leaves: every edge's message, from the call's window arrays. -/
theorem final (c : Dev nD) (et dr : IVec S1200000 32)
    (het : ∀ i, et i = 0#32 ∨ et i = 1#32) (hdr : ∀ i, dr i = 0#32 ∨ dr i = 1#32)
    (hmode : (V c main_v5 : S1200000x1.Idx → EReal) = Cert.Layers.modeCol et dr) :
    ((dat4 (F := Ideal) V c).arrAt 5 cfg4.N : S1200000x64.Idx → EReal)
      = Cert.Layers.edgeMsg (V c main_v79) (V c main_v80) (V c main_v84) (V c main_v88) et dr :=
  (dat4 (F := Ideal) V c).arrAt_eq_of_cover 5
    (Cert.Layers.edgeMsg (V c main_v79) (V c main_v80) (V c main_v84) (V c main_v88) et dr)
    (fun t _ => written_eq V c et dr het hdr hmode t) covered

end Cert.KernelIdeal.EdgeValue4

end
-- ==== Proof.NodeRegion1.lean ====
/-
  The first node call's result array as one function of its window arrays.
  Grid point t of 20 handles nodes 5000 t … 5000 t + 4999: it reads those rows of the node features and of the
  aggregated messages, the self-loop row and the self weight matrix, and writes those rows of the new features:
  (features less the self-loop row) through the matrix, plus the aggregate, clipped below at 0. The blocks tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offset of a whole-block access is the zero function. -/
theorem origin_zero : (![0, 0] : Fin 2 → Nat) = fun _ => 0 := funext fun a => by fin_cases a <;> rfl

/-- The self-loop row spread over 5000 rows: entry (p, k) of the spread array is entry (0, k) of the row. -/
theorem spread_row_apply (x : Vec Ideal S1x64 .f32) (p : Fin 5000) (k : Fin 64) :
    broadcastTo S5000x64 x broadcasts_S1x64_S5000x64 (ix2 p k) = x (ix2 (0 : Fin 1) k) := by
  -- the row axis has extent one, so it reads coordinate 0; the feature axis keeps its coordinate
  refine broadcastTo_apply x _ (ix2 p k) (ix2 (0 : Fin 1) k) (fun a => ?_)
  match a with
  | ⟨0, _⟩ => rfl
  | ⟨1, _⟩ => rfl

/-- The [5000, 64] × [64, 64] product into a zero accumulator: entry (p, q) is the sum over k of l[p, k] * r[k, q]. -/
theorem product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.LibPlainDot.matmul_zero_apply dot_S5000x64_S64x64_S5000x64_1_0_0_1_n_n_wf none l r p q

/-- ONE ENTRY OF THE BLOCK THE BODY WRITES, from the four blocks it reads (x0 the features, x1 the aggregate, x2 the
    self-loop row, x3 the weight matrix): the features less the self-loop row, through the matrix, plus the aggregate,
    clipped below at 0. Over the extended reals the two format changes are the identity and the constant word 0 is 0. -/
theorem block_entry (x0 x1 : Vec Ideal S5000x64 .f32) (x2 : Vec Ideal S1x64 .f32) (x3 : Vec Ideal S64x64 .f32)
    (p : Fin 5000) (q : Fin 64) :
    (out1_4 (F := Ideal) x0 x1 x2 x3 : S5000x64.Idx → EReal) (ix2 p q)
      = max ((∑ k : Fin 64, (x0 (ix2 p k) - x2 (ix2 (0 : Fin 1) k)) * x3 (ix2 k q)) + x1 (ix2 p q)) 0 := by
  -- the one store fills the whole buffer with the body's value of the four whole-buffer loads
  unfold out1_4
  rw [View.canon_unit_zero origin_zero]
  simp only [View.ld_unit_zero (S := S5000x64) origin_zero, View.ld_unit_zero (S := S1x64) origin_zero,
    View.ld_unit_zero (S := S64x64) origin_zero]
  unfold k1_pay1
  -- the maximum, the sum and the product at (p, q); the three reshapes keep their shapes
  rw [maximumf_apply, addf_apply, broadcast_apply, product_apply, shapeCast_self x1, shapeCast_self x2, shapeCast_self x3]
  rw [show (FloatOps.ofBits (F := Ideal) FTy.f32 0#32 : EReal) = 0 from Ideal.ofBits_zero_f32]
  -- term k of the product: the difference at (p, k) times the weight at (k, q)
  refine congrArg (fun s => max (s + x1 (ix2 p q)) 0) (Finset.sum_congr rfl fun k _ => ?_)
  rw [truncf_apply, truncf_apply, subf_apply, spread_row_apply]

/-- Where each window's block sits at grid point t: the three row-blocked windows at block row t, block column 0;
    the self-loop row and the weight matrix always at block (0, 0). -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature block at point t is rows 5000 t … 5000 t + 4999 of the feature array. -/
theorem features_block (c : Dev nD) (t : Fin cfg1.N) (x : S5000x64.Idx) (i : S100000x64.Idx)
    (h0 : (i 0).val = 5000 * t.val + (x 0).val) (h1 : (i 1).val = (x 1).val) :
    (iblk1 (F := Ideal) V c 0 t : Vec Ideal S5000x64 .f32) x = (V c main_arg0 : S100000x64.Idx → EReal) i := by
  obtain ⟨e0, e1, -⟩ := block_positions t
  unfold iblk1
  rw [View.read_apply]
  show (V c main_arg0 : S100000x64.Idx → EReal) _ = V c main_arg0 i
  congr 1
  funext a
  apply Fin.ext
  -- a coordinate in the array is block index * block extent + the coordinate inside the block
  match a with
  | ⟨0, _⟩ => show win1_0.index t 0 * 5000 + 1 * (x 0).val = (i 0).val; rw [e0, h0]; omega
  | ⟨1, _⟩ => show win1_0.index t 1 * 64 + 1 * (x 1).val = (i 1).val; rw [e1, h1]; omega

/-- The aggregate block at point t is rows 5000 t … 5000 t + 4999 of the aggregate array. -/
theorem aggregate_block (c : Dev nD) (t : Fin cfg1.N) (x : S5000x64.Idx) (i : S100000x64.Idx)
    (h0 : (i 0).val = 5000 * t.val + (x 0).val) (h1 : (i 1).val = (x 1).val) :
    (iblk1 (F := Ideal) V c 1 t : Vec Ideal S5000x64 .f32) x = (V c main_v30 : S100000x64.Idx → EReal) i := by
  obtain ⟨-, -, e0, e1, -⟩ := block_positions t
  unfold iblk1
  rw [View.read_apply]
  show (V c main_v30 : S100000x64.Idx → EReal) _ = V c main_v30 i
  congr 1
  funext a
  apply Fin.ext
  match a with
  | ⟨0, _⟩ => show win1_1.index t 0 * 5000 + 1 * (x 0).val = (i 0).val; rw [e0, h0]; omega
  | ⟨1, _⟩ => show win1_1.index t 1 * 64 + 1 * (x 1).val = (i 1).val; rw [e1, h1]; omega

/-- The self-loop row's block is the whole row, at every point. -/
theorem selfRow_block (c : Dev nD) (t : Fin cfg1.N) (x : S1x64.Idx) :
    (iblk1 (F := Ideal) V c 2 t : Vec Ideal S1x64 .f32) x = (V c main_v31 : S1x64.Idx → EReal) x := by
  obtain ⟨-, -, -, -, e0, e1, -⟩ := block_positions t
  unfold iblk1
  rw [View.read_apply]
  show (V c main_v31 : S1x64.Idx → EReal) _ = V c main_v31 x
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The weight matrix's block is the whole matrix, at every point. -/
theorem weights_block (c : Dev nD) (t : Fin cfg1.N) (x : S64x64.Idx) :
    (iblk1 (F := Ideal) V c 3 t : Vec Ideal S64x64 .f32) x = (V c main_v25 : S64x64.Idx → EReal) x := by
  obtain ⟨-, -, -, -, -, -, e0, e1, -⟩ := block_positions t
  unfold iblk1
  rw [View.read_apply]
  show (V c main_v25 : S64x64.Idx → EReal) _ = V c main_v25 x
  congr 1
  funext a
  apply Fin.ext
  match a with
  | ⟨0, _⟩ => show win1_3.index t 0 * 64 + 1 * (x 0).val = (x 0).val; rw [e0]; omega
  | ⟨1, _⟩ => show win1_3.index t 1 * 64 + 1 * (x 1).val = (x 1).val; rw [e1]; omega

/-- Entry x of what point t writes is the new feature of node 5000 t + x₀, feature x₁. -/
theorem written_entry (c : Dev nD) (t : Fin cfg1.N) (x : S5000x64.Idx) (i : S100000x64.Idx)
    (h0 : (i 0).val = 5000 * t.val + (x 0).val) (h1 : (i 1).val = (x 1).val) :
    (out1_4 (F := Ideal) (iblk1 V c 0 t) (iblk1 V c 1 t) (iblk1 V c 2 t) (iblk1 V c 3 t) : S5000x64.Idx → EReal) x
      = Cert.Layers.nodeOut true (V c main_arg0) (V c main_v30) (V c main_v31) (V c main_v25) i := by
  obtain ⟨p, q, rfl⟩ : ∃ (p : Fin 5000) (q : Fin 64), x = ix2 p q := ⟨x 0, x 1, eq_ix2 x⟩
  refine (block_entry (iblk1 V c 0 t) (iblk1 V c 1 t) (iblk1 V c 2 t) (iblk1 V c 3 t) p q).trans ?_
  -- the layer with its rectifier, at node i₀ and feature i₁
  unfold Cert.Layers.nodeOut
  dsimp only
  rw [if_pos rfl]
  have hq : q = (⟨(i 1).val, (i 1).isLt⟩ : Fin 64) := Fin.ext h1.symm
  rw [aggregate_block V c t (ix2 p q) i h0 h1]
  refine congrArg (fun s => max (s + (V c main_v30 : S100000x64.Idx → EReal) i) 0) (Finset.sum_congr rfl fun k _ => ?_)
  rw [features_block V c t (ix2 p k) (ix2 (⟨(i 0).val, (i 0).isLt⟩ : Fin 100000) k) h0 rfl, selfRow_block,
    weights_block, hq]

/-- WHAT POINT t WRITES BACK is block t of the layer's result on the whole arrays. -/
theorem written_block (c : Dev nD) (t : Fin cfg1.N) :
    (dat1 (F := Ideal) V c).flushed 4 t = ((cfg1.win 4).blk t).view.read (Elt Ideal)
      (Cert.Layers.nodeOut true (V c main_arg0) (V c main_v30) (V c main_v31) (V c main_v25)) := by
  show (cfg1.win 4).cut (grid1.coords t) ((dat1 V c).after 4 t) = _
  rw [after1_4]
  obtain ⟨-, -, -, -, -, -, -, -, e0, e1⟩ := block_positions t
  funext j
  rw [View.read_apply]
  refine written_entry V c t j _ ?_ ?_
  · show win1_4.index t 0 * 5000 + 1 * (j 0).val = 5000 * t.val + (j 0).val
    rw [e0]; omega
  · show win1_4.index t 1 * 64 + 1 * (j 1).val = (j 1).val
    rw [e1]; omega

/-- An index of the result array is in point t's block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v32).slice (win1_4.rect t)).set ↔ _
  rw [View.set_slice_whole, Rect.mem_set_unit]
  exact Iff.rfl

/-- THE BLOCKS TILE THE ARRAY: node r is in the block of point r / 5000. -/
theorem blocks_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by omega
  obtain ⟨-, -, -, -, -, -, -, -, e0, e1⟩ := block_positions ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ 1 * 64 ≤ (i 1).val
      ∧ (i 1).val < win1_4.index ⟨(i 0).val / 5000, ht⟩ 1 * 64 + 64
    rw [e1]; omega

/-- The feature array the first node call leaves: every node's new features, from the call's window arrays. -/
theorem final (c : Dev nD) :
    ((dat1 (F := Ideal) V c).arrAt 4 cfg1.N : S100000x64.Idx → EReal)
      = Cert.Layers.nodeOut true (V c main_arg0) (V c main_v30) (V c main_v31) (V c main_v25) :=
  (dat1 (F := Ideal) V c).arrAt_eq_of_cover 4 _ (fun t _ => written_block V c t) blocks_cover

end Cert.KernelIdeal.NodeValue1

end
-- ==== Proof.NodeRegion3.lean ====
/-
  The second node call's result array as one function of its window arrays.
  Grid point t of 20 handles nodes 5000 t … 5000 t + 4999: it reads those rows of the first layer's features and of
  the second layer's aggregated messages, the second self-loop row and self weight matrix, and writes those rows of the
  new features: (features less the self-loop row) through the matrix, plus the aggregate, clipped below at 0. The blocks
  tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offset of a whole-block access is the zero function. -/
theorem origin_zero : (![0, 0] : Fin 2 → Nat) = fun _ => 0 := funext fun a => by fin_cases a <;> rfl

/-- The self-loop row spread over 5000 rows: entry (p, k) of the spread array is entry (0, k) of the row. -/
theorem spread_row_apply (x : Vec Ideal S1x64 .f32) (p : Fin 5000) (k : Fin 64) :
    broadcastTo S5000x64 x broadcasts_S1x64_S5000x64 (ix2 p k) = x (ix2 (0 : Fin 1) k) := by
  -- the row axis has extent one, so it reads coordinate 0; the feature axis keeps its coordinate
  refine broadcastTo_apply x _ (ix2 p k) (ix2 (0 : Fin 1) k) (fun a => ?_)
  match a with
  | ⟨0, _⟩ => rfl
  | ⟨1, _⟩ => rfl

/-- The [5000, 64] × [64, 64] product into a zero accumulator: entry (p, q) is the sum over k of l[p, k] * r[k, q]. -/
theorem product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.LibPlainDot.matmul_zero_apply dot_S5000x64_S64x64_S5000x64_1_0_0_1_n_n_wf none l r p q

/-- ONE ENTRY OF THE BLOCK THE BODY WRITES, from the four blocks it reads (x0 the features, x1 the aggregate, x2 the
    self-loop row, x3 the weight matrix): the features less the self-loop row, through the matrix, plus the aggregate,
    clipped below at 0. Over the extended reals the two format changes are the identity and the constant word 0 is 0. -/
theorem block_entry (x0 x1 : Vec Ideal S5000x64 .f32) (x2 : Vec Ideal S1x64 .f32) (x3 : Vec Ideal S64x64 .f32)
    (p : Fin 5000) (q : Fin 64) :
    (out3_4 (F := Ideal) x0 x1 x2 x3 : S5000x64.Idx → EReal) (ix2 p q)
      = max ((∑ k : Fin 64, (x0 (ix2 p k) - x2 (ix2 (0 : Fin 1) k)) * x3 (ix2 k q)) + x1 (ix2 p q)) 0 := by
  -- the one store fills the whole buffer with the body's value of the four whole-buffer loads
  unfold out3_4
  rw [View.canon_unit_zero origin_zero]
  simp only [View.ld_unit_zero (S := S5000x64) origin_zero, View.ld_unit_zero (S := S1x64) origin_zero,
    View.ld_unit_zero (S := S64x64) origin_zero]
  unfold k3_pay1
  -- the maximum, the sum and the product at (p, q); the four reshapes keep their shapes
  rw [maximumf_apply, addf_apply, broadcast_apply, product_apply, shapeCast_self x0, shapeCast_self x1,
    shapeCast_self x2, shapeCast_self x3]
  rw [show (FloatOps.ofBits (F := Ideal) FTy.f32 0#32 : EReal) = 0 from Ideal.ofBits_zero_f32]
  -- term k of the product: the difference at (p, k) times the weight at (k, q)
  refine congrArg (fun s => max (s + x1 (ix2 p q)) 0) (Finset.sum_congr rfl fun k _ => ?_)
  rw [truncf_apply, truncf_apply, subf_apply, spread_row_apply]

/-- Where each window's block sits at grid point t: the three row-blocked windows at block row t, block column 0;
    the self-loop row and the weight matrix always at block (0, 0). -/
theorem block_positions : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The feature block at point t is rows 5000 t … 5000 t + 4999 of the first layer's features. -/
theorem features_block (c : Dev nD) (t : Fin cfg3.N) (x : S5000x64.Idx) (i : S100000x64.Idx)
    (h0 : (i 0).val = 5000 * t.val + (x 0).val) (h1 : (i 1).val = (x 1).val) :
    (iblk3 (F := Ideal) V c 0 t : Vec Ideal S5000x64 .f32) x = (V c main_v32 : S100000x64.Idx → EReal) i := by
  obtain ⟨e0, e1, -⟩ := block_positions t
  unfold iblk3
  rw [View.read_apply]
  show (V c main_v32 : S100000x64.Idx → EReal) _ = V c main_v32 i
  congr 1
  funext a
  apply Fin.ext
  -- a coordinate in the array is block index * block extent + the coordinate inside the block
  match a with
  | ⟨0, _⟩ => show win3_0.index t 0 * 5000 + 1 * (x 0).val = (i 0).val; rw [e0, h0]; omega
  | ⟨1, _⟩ => show win3_0.index t 1 * 64 + 1 * (x 1).val = (i 1).val; rw [e1, h1]; omega

/-- The aggregate block at point t is rows 5000 t … 5000 t + 4999 of the aggregate array. -/
theorem aggregate_block (c : Dev nD) (t : Fin cfg3.N) (x : S5000x64.Idx) (i : S100000x64.Idx)
    (h0 : (i 0).val = 5000 * t.val + (x 0).val) (h1 : (i 1).val = (x 1).val) :
    (iblk3 (F := Ideal) V c 1 t : Vec Ideal S5000x64 .f32) x = (V c main_v63 : S100000x64.Idx → EReal) i := by
  obtain ⟨-, -, e0, e1, -⟩ := block_positions t
  unfold iblk3
  rw [View.read_apply]
  show (V c main_v63 : S100000x64.Idx → EReal) _ = V c main_v63 i
  congr 1
  funext a
  apply Fin.ext
  match a with
  | ⟨0, _⟩ => show win3_1.index t 0 * 5000 + 1 * (x 0).val = (i 0).val; rw [e0, h0]; omega
  | ⟨1, _⟩ => show win3_1.index t 1 * 64 + 1 * (x 1).val = (i 1).val; rw [e1, h1]; omega

/-- The self-loop row's block is the whole row, at every point. -/
theorem selfRow_block (c : Dev nD) (t : Fin cfg3.N) (x : S1x64.Idx) :
    (iblk3 (F := Ideal) V c 2 t : Vec Ideal S1x64 .f32) x = (V c main_v64 : S1x64.Idx → EReal) x := by
  obtain ⟨-, -, -, -, e0, e1, -⟩ := block_positions t
  unfold iblk3
  rw [View.read_apply]
  show (V c main_v64 : S1x64.Idx → EReal) _ = V c main_v64 x
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The weight matrix's block is the whole matrix, at every point. -/
theorem weights_block (c : Dev nD) (t : Fin cfg3.N) (x : S64x64.Idx) :
    (iblk3 (F := Ideal) V c 3 t : Vec Ideal S64x64 .f32) x = (V c main_v58 : S64x64.Idx → EReal) x := by
  obtain ⟨-, -, -, -, -, -, e0, e1, -⟩ := block_positions t
  unfold iblk3
  rw [View.read_apply]
  show (V c main_v58 : S64x64.Idx → EReal) _ = V c main_v58 x
  congr 1
  funext a
  apply Fin.ext
  match a with
  | ⟨0, _⟩ => show win3_3.index t 0 * 64 + 1 * (x 0).val = (x 0).val; rw [e0]; omega
  | ⟨1, _⟩ => show win3_3.index t 1 * 64 + 1 * (x 1).val = (x 1).val; rw [e1]; omega

/-- Entry x of what point t writes is the new feature of node 5000 t + x₀, feature x₁. -/
theorem written_entry (c : Dev nD) (t : Fin cfg3.N) (x : S5000x64.Idx) (i : S100000x64.Idx)
    (h0 : (i 0).val = 5000 * t.val + (x 0).val) (h1 : (i 1).val = (x 1).val) :
    (out3_4 (F := Ideal) (iblk3 V c 0 t) (iblk3 V c 1 t) (iblk3 V c 2 t) (iblk3 V c 3 t) : S5000x64.Idx → EReal) x
      = Cert.Layers.nodeOut true (V c main_v32) (V c main_v63) (V c main_v64) (V c main_v58) i := by
  obtain ⟨p, q, rfl⟩ : ∃ (p : Fin 5000) (q : Fin 64), x = ix2 p q := ⟨x 0, x 1, eq_ix2 x⟩
  refine (block_entry (iblk3 V c 0 t) (iblk3 V c 1 t) (iblk3 V c 2 t) (iblk3 V c 3 t) p q).trans ?_
  -- the layer with its rectifier, at node i₀ and feature i₁
  unfold Cert.Layers.nodeOut
  dsimp only
  rw [if_pos rfl]
  have hq : q = (⟨(i 1).val, (i 1).isLt⟩ : Fin 64) := Fin.ext h1.symm
  rw [aggregate_block V c t (ix2 p q) i h0 h1]
  refine congrArg (fun s => max (s + (V c main_v63 : S100000x64.Idx → EReal) i) 0) (Finset.sum_congr rfl fun k _ => ?_)
  rw [features_block V c t (ix2 p k) (ix2 (⟨(i 0).val, (i 0).isLt⟩ : Fin 100000) k) h0 rfl, selfRow_block,
    weights_block, hq]

/-- WHAT POINT t WRITES BACK is block t of the layer's result on the whole arrays. -/
theorem written_block (c : Dev nD) (t : Fin cfg3.N) :
    (dat3 (F := Ideal) V c).flushed 4 t = ((cfg3.win 4).blk t).view.read (Elt Ideal)
      (Cert.Layers.nodeOut true (V c main_v32) (V c main_v63) (V c main_v64) (V c main_v58)) := by
  show (cfg3.win 4).cut (grid3.coords t) ((dat3 V c).after 4 t) = _
  rw [after3_4]
  obtain ⟨-, -, -, -, -, -, -, -, e0, e1⟩ := block_positions t
  funext j
  rw [View.read_apply]
  refine written_entry V c t j _ ?_ ?_
  · show win3_4.index t 0 * 5000 + 1 * (j 0).val = 5000 * t.val + (j 0).val
    rw [e0]; omega
  · show win3_4.index t 1 * 64 + 1 * (j 1).val = (j 1).val
    rw [e1]; omega

/-- An index of the result array is in point t's block iff each coordinate is in the block's range on its axis. -/
theorem mem_block (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v65).slice (win3_4.rect t)).set ↔ _
  rw [View.set_slice_whole, Rect.mem_set_unit]
  exact Iff.rfl

/-- THE BLOCKS TILE THE ARRAY: node r is in the block of point r / 5000. -/
theorem blocks_cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have ht : (i 0).val / 5000 < cfg3.N := by omega
  obtain ⟨-, -, -, -, -, -, -, -, e0, e1⟩ := block_positions ⟨(i 0).val / 5000, ht⟩
  refine ⟨⟨(i 0).val / 5000, ht⟩, flush3_4 _, ?_⟩
  rw [mem_block]
  intro a
  match a with
  | ⟨0, _⟩ =>
    show win3_4.index ⟨(i 0).val / 5000, ht⟩ 0 * 5000 ≤ (i 0).val
      ∧ (i 0).val < win3_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ 1 * 64 ≤ (i 1).val
      ∧ (i 1).val < win3_4.index ⟨(i 0).val / 5000, ht⟩ 1 * 64 + 64
    rw [e1]; omega

/-- The feature array the second node call leaves: every node's new features, from the call's window arrays. -/
theorem final (c : Dev nD) :
    ((dat3 (F := Ideal) V c).arrAt 4 cfg3.N : S100000x64.Idx → EReal)
      = Cert.Layers.nodeOut true (V c main_v32) (V c main_v63) (V c main_v64) (V c main_v58) :=
  (dat3 (F := Ideal) V c).arrAt_eq_of_cover 4 _ (fun t _ => written_block V c t) blocks_cover

end Cert.KernelIdeal.NodeValue3

end
-- ==== Proof.NodeRegion5.lean ====
/-
  The third node call's result array as one function of its window arrays.
  Grid point t of 20 handles nodes 5000 t … 5000 t + 4999: it reads those rows of the second layer's features and of
  the third layer's aggregated messages, the third self-loop row and self weight matrix, and writes those rows of the
  new features: (features less the self-loop row) through the matrix, plus the aggregate. The last layer has no
  rectifier. The blocks tile the array.
-/
import proofs.«415866_j30846455119993_3_alg».proof.Proof.Gen.KernelIdeal.Frame
import proofs.«415866_j30846455119993_3_alg».proof.Proof.Spec
import proofs.«415866_j30846455119993_3_alg».proof.Proof.LibPlainDot
import proofs.«415866_j30846455119993_3_alg».proof.Proof.LibSlice
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block offset of a whole-block access is the zero function. -/
theorem origin_zero : (![0, 0] : Fin 2 → Nat) = fun _ => 0 := funext fun a => by fin_cases a <;> rfl

/-- The self-loop row spread over 5000 rows: entry (p, k) of the spread array is entry (0, k) of the row. -/
theorem spread_row_apply (x : Vec Ideal S1x64 .f32) (p : Fin 5000) (k : Fin 64) :
    broadcastTo S5000x64 x broadcasts_S1x64_S5000x64 (ix2 p k) = x (ix2 (0 : Fin 1) k) := by
  -- the row axis has extent one, so it reads coordinate 0; the feature axis keeps its coordinate
  refine broadcastTo_apply x _ (ix2 p k) (ix2 (0 : Fin 1) k) (fun a => ?_)
  match a with
  | ⟨0, _⟩ => rfl
  | ⟨1, _⟩ => rfl

/-- The [5000, 64] × [64, 64] product into a zero accumulator: entry (p, q) is the sum over k of l[p, k] * r[k, q]. -/
theorem product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) :=
  Cert.LibPlainDot.matmul_zero_apply dot_S5000x64_S64x64_S5000x64_1_0_0_1_n_n_wf none l r p q

/-- ONE ENTRY OF THE BLOCK THE BODY WRITES, from the four blocks it reads (x0 the features, x1 the aggregate, x2 the
    self-loop row, x3 the weight matrix): the features less the self-loop row, through the matrix, plus the aggregate,
    with no clipping. Over the extended reals the two format changes are the identity. -/
theorem block_entry (x0 x1 : Vec Ideal S5000x64 .f32) (x2 : Vec Ideal S1x64 .f32) (x3 : Vec Ideal S64x64 .f32)
    (p : Fin 5000) (q : Fin 64) :
    (out5_4 (F := Ideal) x0 x1 x2 x3 : S5000x64.Idx → EReal) (ix2 p q)
      = (∑ k : Fin 64, (x0 (ix2 p k) - x2 (ix2 (0 : Fin 1) k)) * x3 (ix2 k q)) + x1 (ix2 p q) := by
  -- the one store fills the whole buffer with the body's value of the four whole-buffer loads
  unfold out5_4
  rw [View.canon_unit_zero origin_zero]
  simp only [View.ld_unit_zero (S := S5000x64) origin_zero, View.ld_unit_zero (S := S1x64) origin_zero,
    View.ld_unit_zero (S := S64x64) origin_zero]
  unfold k5_pay1
  -- the sum and the product at (p, q); the four reshapes keep their shapes
  rw [addf_apply, product_apply, shapeCast_self x0, shapeCast_self x1, shapeCast_self x2, shapeCast_self x3]
  -- term k of the product: the difference at (p, k) times the weight at (k, q)
  refine congrArg (fun s => s + x1 (ix2 p q)) (Finset.sum_congr rfl fun k _ => ?_)
  rw [truncf_apply, truncf_apply, subf_apply, spread_row_apply]

/-- Where each window's block sits at grid point t: the three row-blocked windows at block row t, block column 0;
    the self-loop row and the weight matrix always at block (0, 0). -/
theorem block_positions : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The feature block at point t is rows 5000 t … 5000 t + 4999 of the second layer's features. -/
theorem features_block (c : Dev nD) (t : Fin cfg5.N) (x : S5000x64.Idx) (i : S100000x64.Idx)
    (h0 : (i 0).val = 5000 * t.val + (x 0).val) (h1 : (i 1).val = (x 1).val) :
    (iblk5 (F := Ideal) V c 0 t : Vec Ideal S5000x64 .f32) x = (V c main_v65 : S100000x64.Idx → EReal) i := by
  obtain ⟨e0, e1, -⟩ := block_positions t
  unfold iblk5
  rw [View.read_apply]
  show (V c main_v65 : S100000x64.Idx → EReal) _ = V c main_v65 i
  congr 1
  funext a
  apply Fin.ext
  -- a coordinate in the array is block index * block extent + the coordinate inside the block
  match a with
  | ⟨0, _⟩ => show win5_0.index t 0 * 5000 + 1 * (x 0).val = (i 0).val; rw [e0, h0]; omega
  | ⟨1, _⟩ => show win5_0.index t 1 * 64 + 1 * (x 1).val = (i 1).val; rw [e1, h1]; omega

/-- The aggregate block at point t is rows 5000 t … 5000 t + 4999 of the aggregate array. -/
theorem aggregate_block (c : Dev nD) (t : Fin cfg5.N) (x : S5000x64.Idx) (i : S100000x64.Idx)
    (h0 : (i 0).val = 5000 * t.val + (x 0).val) (h1 : (i 1).val = (x 1).val) :
    (iblk5 (F := Ideal) V c 1 t : Vec Ideal S5000x64 .f32) x = (V c main_v96 : S100000x64.Idx → EReal) i := by
  obtain ⟨-, -, e0, e1, -⟩ := block_positions t
  unfold iblk5
  rw [View.read_apply]
  show (V c main_v96 : S100000x64.Idx → EReal) _ = V c main_v96 i
  congr 1
  funext a
  apply Fin.ext
  match a with
  | ⟨0, _⟩ => show win5_1.index t 0 * 5000 + 1 * (x 0).val = (i 0).val; rw [e0, h0]; omega
  | ⟨1, _⟩ => show win5_1.index t 1 * 64 + 1 * (x 1).val = (i 1).val; rw [e1, h1]; omega

/-- The self-loop row's block is the whole row, at every point. -/
theorem selfRow_block (c : Dev nD) (t : Fin cfg5.N) (x : S1x64.Idx) :
    (iblk5 (F := Ideal) V c 2 t : Vec Ideal S1x64 .f32) x = (V c main_v97 : S1x64.Idx → EReal) x := by
  obtain ⟨-, -, -, -, e0, e1, -⟩ := block_positions t
  unfold iblk5
  rw [View.read_apply]
  show (V c main_v97 : S1x64.Idx → EReal) _ = V c main_v97 x
  congr 1
  funext a
  apply Fin.ext
  match a with
  | ⟨0, _⟩ => show win5_2.index t 0 * 1 + 1 * (x 0).val = (x 0).val; rw [e0]; omega
  | ⟨1, _⟩ => show win5_2.index t 1 * 64 + 1 * (x 1).val = (x 1).val; rw [e1]; omega

/-- The weight matrix's block is the whole matrix, at every point. -/
theorem weights_block (c : Dev nD) (t : Fin cfg5.N) (x : S64x64.Idx) :
    (iblk5 (F := Ideal) V c 3 t : Vec Ideal S64x64 .f32) x = (V c main_v91 : S64x64.Idx → EReal) x := by
  obtain ⟨-, -, -, -, -, -, e0, e1, -⟩ := block_positions t
  unfold iblk5
  rw [View.read_apply]
  show (V c main_v91 : S64x64.Idx → EReal) _ = V c main_v91 x
  congr 1
  funext a
  apply Fin.ext
  match a with
  | ⟨0, _⟩ => show win5_3.index t 0 * 64 + 1 * (x 0).val = (x 0).val; rw [e0]; omega
  | ⟨1, _⟩ => show win5_3.index t 1 * 64 + 1 * (x 1).val = (x 1).val; rw [e1]; omega

/-- Entry x of what point t writes is the new feature of node 5000 t + x₀, feature x₁. -/
theorem written_entry (c : Dev nD) (t : Fin cfg5.N) (x : S5000x64.Idx) (i : S100000x64.Idx)
    (h0 : (i 0).val = 5000 * t.val + (x 0).val) (h1 : (i 1).val = (x 1).val) :
    (out5_4 (F := Ideal) (iblk5 V c 0 t) (iblk5 V c 1 t) (iblk5 V c 2 t) (iblk5 V c 3 t) : S5000x64.Idx → EReal) x
      = Cert.Layers.nodeOut false (V c main_v65) (V c main_v96) (V c main_v97) (V c main_v91) i := by
  obtain ⟨p, q, rfl⟩ : ∃ (p : Fin 5000) (q : Fin 64), x = ix2 p q := ⟨x 0, x 1, eq_ix2 x⟩
  refine (block_entry (iblk5 V c 0 t) (iblk5 V c 1 t) (iblk5 V c 2 t) (iblk5 V c 3 t) p q).trans ?_
  -- the layer without a rectifier, at node i₀ and feature i₁
  unfold Cert.Layers.nodeOut
  dsimp only
  rw [if_neg Bool.false_ne_true]
  have hq : q = (⟨(i 1).val, (i 1).isLt⟩ : Fin 64) := Fin.ext h1.symm
  rw [aggregate_block V c t (ix2 p q) i h0 h1]
  refine congrArg (fun s => s + (V c main_v96 : S100000x64.Idx → EReal) i) (Finset.sum_congr rfl fun k _ => ?_)
  rw [features_block V c t (ix2 p k) (ix2 (⟨(i 0).val, (i 0).isLt⟩ : Fin 100000) k) h0 rfl, selfRow_block,
    weights_block, hq]

/-- WHAT POINT t WRITES BACK is block t of the layer's result on the whole arrays. -/
theorem written_block (c : Dev nD) (t : Fin cfg5.N) :
    (dat5 (F := Ideal) V c).flushed 4 t = ((cfg5.win 4).blk t).view.read (Elt Ideal)
      (Cert.Layers.nodeOut false (V c main_v65) (V c main_v96) (V c main_v97) (V c main_v91)) := by
  show (cfg5.win 4).cut (grid5.coords t) ((dat5 V c).after 4 t) = _
  rw [after5_4]
  obtain ⟨-, -, -, -, -, -, -, -, e0, e1⟩ := block_positions t
  funext j
  rw [View.read_apply]
  refine written_entry V c t j _ ?_ ?_
  · show win5_4.index t 0 * 5000 + 1 * (j 0).val = 5000 * t.val + (j 0).val
    rw [e0]; omega
  · show win5_4.index t 1 * 64 + 1 * (j 1).val = (j 1).val
    rw [e1]; omega

/-- An index of the result array is in point t's block iff each coordinate is in the block's range on its axis. -/
theorem mem_block (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v98).slice (win5_4.rect t)).set ↔ _
  rw [View.set_slice_whole, Rect.mem_set_unit]
  exact Iff.rfl

/-- THE BLOCKS TILE THE ARRAY: node r is in the block of point r / 5000. -/
theorem blocks_cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  have ht : (i 0).val / 5000 < cfg5.N := by omega
  obtain ⟨-, -, -, -, -, -, -, -, e0, e1⟩ := block_positions ⟨(i 0).val / 5000, ht⟩
  refine ⟨⟨(i 0).val / 5000, ht⟩, flush5_4 _, ?_⟩
  rw [mem_block]
  intro a
  match a with
  | ⟨0, _⟩ =>
    show win5_4.index ⟨(i 0).val / 5000, ht⟩ 0 * 5000 ≤ (i 0).val
      ∧ (i 0).val < win5_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ 1 * 64 ≤ (i 1).val
      ∧ (i 1).val < win5_4.index ⟨(i 0).val / 5000, ht⟩ 1 * 64 + 64
    rw [e1]; omega

/-- The feature array the third node call leaves: every node's new features, from the call's window arrays. -/
theorem final (c : Dev nD) :
    ((dat5 (F := Ideal) V c).arrAt 4 cfg5.N : S100000x64.Idx → EReal)
      = Cert.Layers.nodeOut false (V c main_v65) (V c main_v96) (V c main_v97) (V c main_v91) :=
  (dat5 (F := Ideal) V c).arrAt_eq_of_cover 4 _ (fun t _ => written_block V c t) blocks_cover

end Cert.KernelIdeal.NodeValue5

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.RefStages.lean ====
/-
  The reference's three layers, stage by stage, as the two array functions of the specification.
  Layer by layer the reference selects, by the direction test, between two products of one difference
  (gathered source features less the gathered relation row) with the two transposed weight slices: for an edge type
  in {0, 1} the relation gather reads row 0 or row 1, so this is the edge message; and its node update subtracts the
  self-loop row, broadcast over the nodes, multiplies by the transposed self weight slice and adds the scattered
  messages, with the rectifier on the first two layers.
-/
import proofs.«415866_j30846455119993_3_alg».proof.Proof.Gen.ReferenceIdeal.Read
import proofs.«415866_j30846455119993_3_alg».proof.Proof.Spec
import proofs.«415866_j30846455119993_3_alg».proof.Proof.LibPlainDot
import proofs.«415866_j30846455119993_3_alg».proof.Proof.LibIndex
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Cert.ReferenceIdeal Cert.ReferenceIdeal.Read Idealize.ShloMosaic Idealize.ShloMosaic.ValueIdx
open Cert.ReferenceIdeal.Gen

/-! ## The two stages over arbitrary arrays -/

/-- A per-edge vector kept as a column reads, at row `p`, the vector at `p`. -/
theorem colE {α : Type} (v : S1200000.Idx → α) (p : Fin 1200000) :
    broadcastInDim S1200000x1 ![0] bcast_S1200000_S1200000x1_0 v (ix2 p (0 : Fin 1)) = v (ix1 p) :=
  broadcastInDim_apply _ bcast_S1200000_S1200000x1_0 v (ix2 p (0 : Fin 1)) (ix1 p) (fun a => match a with
    | ⟨0, _⟩ => by show p.val = if (1200000 : Nat) = 1 then 0 else p.val; rw [if_neg (by decide)])

/-- That column spread along the features reads, at `(p, q)`, the vector at `p`. -/
theorem rowsE {α : Type} (v : S1200000.Idx → α) (p : Fin 1200000) (q : Fin 64) :
    broadcastInDim S1200000x64 ![0, 1] bcast_S1200000x1_S1200000x64_0_1
      (broadcastInDim S1200000x1 ![0] bcast_S1200000_S1200000x1_0 v) (ix2 p q) = v (ix1 p) := by
  rw [broadcastInDim_apply _ bcast_S1200000x1_S1200000x64_0_1 _ (ix2 p q) (ix2 p (0 : Fin 1)) (fun a => match a with
    | ⟨0, _⟩ => by show p.val = if (1200000 : Nat) = 1 then 0 else p.val; rw [if_neg (by decide)]
    | ⟨1, _⟩ => by show 0 = if (1 : Nat) = 1 then 0 else q.val; rw [if_pos rfl])]
  exact colE v p

/-- The negative-index normalisation of a relation label leaves the labels 0 and 1 alone, and the row they then select
    (read signed, clamped into the three rows) is the specification's row. -/
theorem normRow (e : BitVec 32) (he : e = 0#32 ∨ e = 1#32) :
    min (Scalar.select (IntOp.cmpi .slt e 0#32) (IntOp.addi e 3#32) e).toInt.toNat (3 - 1)
      = (Cert.Layers.relRow e).val := by
  rcases he with rfl | rfl
  · rfl
  · rfl

/-- The relation gather of one layer at `(p, q)`: the relation table's row for edge `p`'s label. -/
theorem relGather (hr : FVec Ideal S3x64 .f32) (et : IVec S1200000 32) (het : ∀ i, et i = 0#32 ∨ et i = 1#32)
    (p : Fin 1200000) (q : Fin 64) :
    Host.gather gather_S3x64_S1200000x1_S1200000x64_1_0_n_n_0_1_164 hr
        (broadcastInDim S1200000x1 ![0] bcast_S1200000_S1200000x1_0
          (select (cmpi .slt et (broadcastInDim S1200000 ![] bcast_S_S1200000 (constantI S_ 32 0#32)))
            (addi et (broadcastInDim S1200000 ![] bcast_S_S1200000 (constantI S_ 32 3#32))) et)) (ix2 p q)
      = hr (ix2 (Cert.Layers.relRow (et (ix1 p))) q) := by
  have h := Cert.LibIndex.rowGather_apply (N := 3) (T := 1200000) (C := 64) (by decide)
    gather_S3x64_S1200000x1_S1200000x64_1_0_n_n_0_1_164.wf hr
    (broadcastInDim S1200000x1 ![0] bcast_S1200000_S1200000x1_0
          (select (cmpi .slt et (broadcastInDim S1200000 ![] bcast_S_S1200000 (constantI S_ 32 0#32)))
            (addi et (broadcastInDim S1200000 ![] bcast_S_S1200000 (constantI S_ 32 3#32))) et)) p q
  refine h.trans ?_
  refine congrArg (fun r => hr (ix2 r q)) (Fin.ext ?_)
  show min (broadcastInDim S1200000x1 ![0] bcast_S1200000_S1200000x1_0
          (select (cmpi .slt et (broadcastInDim S1200000 ![] bcast_S_S1200000 (constantI S_ 32 0#32)))
            (addi et (broadcastInDim S1200000 ![] bcast_S_S1200000 (constantI S_ 32 3#32))) et) (ix2 p (0 : Fin 1))).toInt.toNat (3 - 1)
      = (Cert.Layers.relRow (et (ix1 p))).val
  rw [colE]
  exact normRow (et (ix1 p)) (het (ix1 p))

/-- The equality test of two words is the bit 1 exactly when they are equal. -/
theorem cmpiEq_one_iff {a b : BitVec 32} : IntOp.cmpi .eq a b = 1#1 ↔ a = b := by
  have hbit : ∀ c : Bool, BitVec.ofBool c = 1#1 ↔ c = true := fun c => by cases c <;> decide
  show BitVec.ofBool (a == b) = 1#1 ↔ a = b
  rw [hbit, beq_iff_eq]

/-- The host product of the edge rows with a 64 × 64 matrix, at an entry. -/
theorem dotE (l : FVec Ideal S1200000x64 .f32) (r : FVec Ideal S64x64 .f32) (p : Fin 1200000) (q : Fin 64) :
    Host.dotGeneral dot_S1200000x64_S64x64_S1200000x64_1_0_0_1_n_n none l r (ix2 p q)
      = ∑ k : Fin 64, l (ix2 p k) * r (ix2 k q) :=
  Cert.LibPlainDot.dotGeneral_apply (M := 1200000) (K := 64) (N := 64)
    dot_S1200000x64_S64x64_S1200000x64_1_0_0_1_n_n.wf none .single l r p q

/-- The two products of one layer's differences and the direction's choice between them, at every edge and feature:
    the edge message. -/
theorem edgeStage (hs : FVec Ideal S1200000x64 .f32) (hr : FVec Ideal S3x64 .f32) (wo wi : FVec Ideal S64x64 .f32)
    (et dr : IVec S1200000 32) (het : ∀ i, et i = 0#32 ∨ et i = 1#32) :
    select (broadcastInDim S1200000x64 ![0, 1] bcast_S1200000x1_S1200000x64_0_1
        (broadcastInDim S1200000x1 ![0] bcast_S1200000_S1200000x1_0
          (cmpi .eq dr (broadcastInDim S1200000 ![] bcast_S_S1200000 (constantI S_ 32 1#32)))))
      (Host.dotGeneral dot_S1200000x64_S64x64_S1200000x64_1_0_0_1_n_n none
        (subf hs (Host.gather gather_S3x64_S1200000x1_S1200000x64_1_0_n_n_0_1_164 hr
          (broadcastInDim S1200000x1 ![0] bcast_S1200000_S1200000x1_0
            (select (cmpi .slt et (broadcastInDim S1200000 ![] bcast_S_S1200000 (constantI S_ 32 0#32)))
              (addi et (broadcastInDim S1200000 ![] bcast_S_S1200000 (constantI S_ 32 3#32))) et)))) wi)
      (Host.dotGeneral dot_S1200000x64_S64x64_S1200000x64_1_0_0_1_n_n none
        (subf hs (Host.gather gather_S3x64_S1200000x1_S1200000x64_1_0_n_n_0_1_164 hr
          (broadcastInDim S1200000x1 ![0] bcast_S1200000_S1200000x1_0
            (select (cmpi .slt et (broadcastInDim S1200000 ![] bcast_S_S1200000 (constantI S_ 32 0#32)))
              (addi et (broadcastInDim S1200000 ![] bcast_S_S1200000 (constantI S_ 32 3#32))) et)))) wo)
    = Cert.Layers.edgeMsg hs hr wo wi et dr := by
  funext i
  obtain ⟨p, q, rfl⟩ : ∃ (p : Fin 1200000) (q : Fin 64), i = ix2 p q := ⟨i 0, i 1, eq_ix2 i⟩
  rw [select_apply, rowsE, dotE, dotE]
  show Scalar.select (IntOp.cmpi .eq (dr (ix1 p)) 1#32) _ _
    = ∑ k : Fin 64, (hs (ix2 p k) - hr (ix2 (Cert.Layers.relRow (et (ix1 p))) k))
        * (if dr (ix1 p) = 1#32 then wi else wo) (ix2 k q)
  by_cases hd : dr (ix1 p) = 1#32
  · have hc : IntOp.cmpi .eq (dr (ix1 p)) 1#32 = 1#1 := cmpiEq_one_iff.mpr hd
    rw [hc, select_one, if_pos hd]
    refine Finset.sum_congr rfl fun k _ => ?_
    rw [subf_apply, relGather hr et het p k]
  · have hc : IntOp.cmpi .eq (dr (ix1 p)) 1#32 = 0#1 :=
      eq_zero_of_ne_one (fun h => hd (cmpiEq_one_iff.mp h))
    rw [hc, select_zero, if_neg hd]
    refine Finset.sum_congr rfl fun k _ => ?_
    rw [subf_apply, relGather hr et het p k]

/-- The host product of the node rows with a 64 × 64 matrix, at an entry. -/
theorem dotN (l : FVec Ideal S100000x64 .f32) (r : FVec Ideal S64x64 .f32) (p : Fin 100000) (q : Fin 64) :
    Host.dotGeneral dot_S100000x64_S64x64_S100000x64_1_0_0_1_n_n none l r (ix2 p q)
      = ∑ k : Fin 64, l (ix2 p k) * r (ix2 k q) :=
  Cert.LibPlainDot.dotGeneral_apply (M := 100000) (K := 64) (N := 64)
    dot_S100000x64_S64x64_S100000x64_1_0_0_1_n_n.wf none .single l r p q

/-- A one-row table flattened to its 64 entries and laid along every node's features reads, at `(p, k)`, the row's
    entry `k`. -/
theorem selfRowN {α : Type} (row : S1x64.Idx → α) (p : Fin 100000) (k : Fin 64) :
    broadcastInDim S100000x64 ![0, 1] bcast_S1x64_S100000x64_0_1
      (broadcastInDim S1x64 ![1] bcast_S64_S1x64_1 (shapeCast _ row shapeCasts_S1x64_S64)) (ix2 p k)
      = row (ix2 (0 : Fin 1) k) := by
  rw [broadcastInDim_apply _ bcast_S1x64_S100000x64_0_1 _ (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])]
  rw [broadcastInDim_apply _ bcast_S64_S1x64_1 _ (ix2 (0 : Fin 1) k) (ix1 k) (fun a => match a with
    | ⟨0, _⟩ => by show k.val = if (64 : Nat) = 1 then 0 else k.val; rw [if_neg (by decide)])]
  exact shapeCast_apply row shapeCasts_S1x64_S64 (ix1 k) (ix2 (0 : Fin 1) k)
    (by rewrite [Shape.rowMajor_val_two, Shape.rowMajor_val_one]; show 0 * 64 + k.val = k.val; omega)

/-- The float zero spread over the nodes' features is the extended real 0 everywhere. -/
theorem zeroN (i : S100000x64.Idx) :
    broadcastInDim S100000x64 ![] bcast_S_S100000x64 (constant (F := Ideal) S_ .f32 0x00000000#32) i = 0 :=
  Ideal.ofBits_zero_f32

/-- One layer's self product plus the scattered messages, at every node and feature: the node update without the
    rectifier. -/
theorem nodeStage (hu agg : FVec Ideal S100000x64 .f32) (row : FVec Ideal S1x64 .f32) (ws : FVec Ideal S64x64 .f32) :
    addf (Host.dotGeneral dot_S100000x64_S64x64_S100000x64_1_0_0_1_n_n none
        (subf hu (broadcastInDim S100000x64 ![0, 1] bcast_S1x64_S100000x64_0_1
          (broadcastInDim S1x64 ![1] bcast_S64_S1x64_1 (shapeCast _ row shapeCasts_S1x64_S64)))) ws) agg
      = Cert.Layers.nodeOut false hu agg row ws := by
  funext i
  obtain ⟨p, q, rfl⟩ : ∃ (p : Fin 100000) (q : Fin 64), i = ix2 p q := ⟨i 0, i 1, eq_ix2 i⟩
  rw [addf_apply, dotN]
  show _ = (∑ k : Fin 64, (hu (ix2 p k) - row (ix2 (0 : Fin 1) k)) * ws (ix2 k q)) + agg (ix2 p q)
  congr 1
  refine Finset.sum_congr rfl fun k _ => ?_
  rw [subf_apply, selfRowN]

/-- The same with the rectifier: the larger of that sum and the float zero. -/
theorem nodeStageRelu (hu agg : FVec Ideal S100000x64 .f32) (row : FVec Ideal S1x64 .f32) (ws : FVec Ideal S64x64 .f32) :
    maximumf (addf (Host.dotGeneral dot_S100000x64_S64x64_S100000x64_1_0_0_1_n_n none
        (subf hu (broadcastInDim S100000x64 ![0, 1] bcast_S1x64_S100000x64_0_1
          (broadcastInDim S1x64 ![1] bcast_S64_S1x64_1 (shapeCast _ row shapeCasts_S1x64_S64)))) ws) agg)
        (broadcastInDim S100000x64 ![] bcast_S_S100000x64 (constant S_ .f32 0x00000000#32))
      = Cert.Layers.nodeOut true hu agg row ws := by
  rw [nodeStage]
  funext i
  rw [maximumf_apply, zeroN]
  rfl

/-! ## The reference's three layers -/

variable (x0 : FVec Ideal S100000x64 .f32) (x1 : FVec Ideal S16x64 .f32) (x2 : FVec Ideal S3x16 .f32)
  (x3 x4 x5 x6 : FVec Ideal S3x64x64 .f32) (x7 x8 x9 x10 : IVec S1200000 32)

/-- Layer 1's selected product is the edge message of the gathered input features and the initial relation table. -/
theorem msg0 (het : ∀ i, x9 i = 0#32 ∨ x9 i = 1#32) :
    (val_main_v27 (F := Ideal) x0 x1 x2 x3 x4 x7 x9 x10 : S1200000x64.Idx → EReal)
      = Cert.Layers.edgeMsg (val_main_v10 (F := Ideal) x0 x7) (val_main_v0 (F := Ideal) x1 x2)
          (val_main_v21 (F := Ideal) x3) (val_main_v25 (F := Ideal) x4) x9 x10 := by
  exact edgeStage (val_main_v10 (F := Ideal) x0 x7) (val_main_v0 (F := Ideal) x1 x2) (val_main_v21 (F := Ideal) x3)
    (val_main_v25 (F := Ideal) x4) x9 x10 het

/-- Layer 1's rectified sum is the node update of the input features. -/
theorem node0 :
    (val_main_v45 (F := Ideal) x0 x1 x2 x3 x4 x5 x7 x8 x9 x10 : S100000x64.Idx → EReal)
      = Cert.Layers.nodeOut true x0 (val_main_v30 (F := Ideal) x0 x1 x2 x3 x4 x7 x8 x9 x10)
          (val_main_v31 (F := Ideal) x1 x2) (val_main_v38 (F := Ideal) x5) := by
  exact nodeStageRelu x0 (val_main_v30 (F := Ideal) x0 x1 x2 x3 x4 x7 x8 x9 x10) (val_main_v31 (F := Ideal) x1 x2)
    (val_main_v38 (F := Ideal) x5)

/-- Layer 2's selected product is the edge message of layer 1's features and relation table. -/
theorem msg1 (het : ∀ i, x9 i = 0#32 ∨ x9 i = 1#32) :
    (val_main_v70 (F := Ideal) x0 x1 x2 x3 x4 x5 x6 x7 x8 x9 x10 : S1200000x64.Idx → EReal)
      = Cert.Layers.edgeMsg (val_main_v53 (F := Ideal) x0 x1 x2 x3 x4 x5 x7 x8 x9 x10) (val_main_v46 (F := Ideal) x1 x2 x6)
          (val_main_v64 (F := Ideal) x3) (val_main_v68 (F := Ideal) x4) x9 x10 := by
  exact edgeStage (val_main_v53 (F := Ideal) x0 x1 x2 x3 x4 x5 x7 x8 x9 x10) (val_main_v46 (F := Ideal) x1 x2 x6)
    (val_main_v64 (F := Ideal) x3) (val_main_v68 (F := Ideal) x4) x9 x10 het

/-- Layer 2's rectified sum is the node update of layer 1's features. -/
theorem node1 :
    (val_main_v88 (F := Ideal) x0 x1 x2 x3 x4 x5 x6 x7 x8 x9 x10 : S100000x64.Idx → EReal)
      = Cert.Layers.nodeOut true (val_main_v45 (F := Ideal) x0 x1 x2 x3 x4 x5 x7 x8 x9 x10)
          (val_main_v73 (F := Ideal) x0 x1 x2 x3 x4 x5 x6 x7 x8 x9 x10)
          (val_main_v74 (F := Ideal) x1 x2 x6) (val_main_v81 (F := Ideal) x5) := by
  exact nodeStageRelu (val_main_v45 (F := Ideal) x0 x1 x2 x3 x4 x5 x7 x8 x9 x10)
    (val_main_v73 (F := Ideal) x0 x1 x2 x3 x4 x5 x6 x7 x8 x9 x10) (val_main_v74 (F := Ideal) x1 x2 x6)
    (val_main_v81 (F := Ideal) x5)

/-- Layer 3's selected product is the edge message of layer 2's features and relation table. -/
theorem msg2 (het : ∀ i, x9 i = 0#32 ∨ x9 i = 1#32) :
    (val_main_v113 (F := Ideal) x0 x1 x2 x3 x4 x5 x6 x7 x8 x9 x10 : S1200000x64.Idx → EReal)
      = Cert.Layers.edgeMsg (val_main_v96 (F := Ideal) x0 x1 x2 x3 x4 x5 x6 x7 x8 x9 x10) (val_main_v89 (F := Ideal) x1 x2 x6)
          (val_main_v107 (F := Ideal) x3) (val_main_v111 (F := Ideal) x4) x9 x10 := by
  exact edgeStage (val_main_v96 (F := Ideal) x0 x1 x2 x3 x4 x5 x6 x7 x8 x9 x10) (val_main_v89 (F := Ideal) x1 x2 x6)
    (val_main_v107 (F := Ideal) x3) (val_main_v111 (F := Ideal) x4) x9 x10 het

/-- Layer 3's sum, with no rectifier, is the node update of layer 2's features: the program's result. -/
theorem node2 :
    (val_main_v126 (F := Ideal) x0 x1 x2 x3 x4 x5 x6 x7 x8 x9 x10 : S100000x64.Idx → EReal)
      = Cert.Layers.nodeOut false (val_main_v88 (F := Ideal) x0 x1 x2 x3 x4 x5 x6 x7 x8 x9 x10)
          (val_main_v116 (F := Ideal) x0 x1 x2 x3 x4 x5 x6 x7 x8 x9 x10)
          (val_main_v117 (F := Ideal) x1 x2 x6) (val_main_v124 (F := Ideal) x5) := by
  exact nodeStage (val_main_v88 (F := Ideal) x0 x1 x2 x3 x4 x5 x6 x7 x8 x9 x10)
    (val_main_v116 (F := Ideal) x0 x1 x2 x3 x4 x5 x6 x7 x8 x9 x10) (val_main_v117 (F := Ideal) x1 x2 x6)
    (val_main_v124 (F := Ideal) x5)

end Cert.ReferenceIdeal.Stages

end
-- ==== Proof.KernelChain.lean ====
/-
  The idealized kernel program's result, boundary by boundary, as the reference's own stages of the launch arrays.
  The program is six kernel calls among seven stretches of host operations. At each boundary the buffers a later
  stage reads are named as functions of the eleven argument arrays:
   * a host stretch's result is its operations applied to what the previous boundary holds; the operations the two
     programs share (the source gather, the transposed weight slices, the relation table and its updates, the scatter
     of messages) are the same functions on both sides — a change of float format is the identity at the ideal
     instance, and the two programs' dimension records have the same entries;
   * an edge call leaves the edge messages of its window arrays, which is what the reference's selected product is;
   * a node call leaves the node update of its window arrays, which is what the reference's (rectified) sum is;
   * a buffer that a stretch or a call does not write keeps its contents across it.
  Three layers of this give the result buffer as the reference's last stage of the same arguments.
-/
import proofs.«415866_j30846455119993_3_alg».proof.Proof.Gen.KernelIdeal.Frame
import proofs.«415866_j30846455119993_3_alg».proof.Proof.Gen.ReferenceIdeal.Read
import proofs.«415866_j30846455119993_3_alg».proof.Proof.Spec
import proofs.«415866_j30846455119993_3_alg».proof.Proof.ModeColumn
import proofs.«415866_j30846455119993_3_alg».proof.Proof.EdgeRegion0
import proofs.«415866_j30846455119993_3_alg».proof.Proof.EdgeRegion2
import proofs.«415866_j30846455119993_3_alg».proof.Proof.EdgeRegion4
import proofs.«415866_j30846455119993_3_alg».proof.Proof.NodeRegion1
import proofs.«415866_j30846455119993_3_alg».proof.Proof.NodeRegion3
import proofs.«415866_j30846455119993_3_alg».proof.Proof.NodeRegion5
import proofs.«415866_j30846455119993_3_alg».proof.Proof.RefStages
import Idealize.ShloMosaic.Lib.StableHlo.Run

set_option maxRecDepth 16384
-- a stretch of host operations is walked with one decided inequality of references per operation and buffer
set_option maxHeartbeats 4000000

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read Cert.ReferenceIdeal.Stages

variable (m : (ℓ : Loc nD τ sig) → Buf (Elt Ideal) ℓ) (ρ : Dev nD → PrngReg) (c : Dev nD)

/-- One step down through the boundaries, repeated: a call's exit at a buffer that is none of its arrays is its entry;
    a host stretch's exit is its operations' results over its entry. It stops at a call's own arrays and at the launch. -/
macro "descend" : tactic => `(tactic| repeat (first
  | (rw [W12_of_ne]; rotate_left; decide)
  | (rw [W10_of_ne]; rotate_left; decide)
  | (rw [W8_of_ne]; rotate_left; decide)
  | (rw [W6_of_ne]; rotate_left; decide)
  | (rw [W4_of_ne]; rotate_left; decide)
  | (rw [W2_of_ne]; rotate_left; decide)
  | (dsimp only [W13, W11, W9, W7, W5, W3, W1, hostOps0, hostOps1, hostOps2, hostOps3, hostOps4, hostOps5, hostOps6]; after_results_simp)))

/-! ## The mode column: written once, read by all three edge calls, which leave it as they found it -/

theorem W1_v5 : (W1 (F := Ideal) m ρ c (Proc.devRef .tc main_v5) : S1200000x1.Idx → EReal) = Cert.Layers.modeCol (m ((c : Thread nD τ).loc main_arg9)) (m ((c : Thread nD τ).loc main_arg10)) := by
  descend
  exact ModeColumn.mode_eq _ _

/-- The first edge call reads the mode column through an input window: it leaves it as entered. -/
theorem W2_v5 : W2 (F := Ideal) m ρ c (Proc.devRef .tc main_v5) = W1 (F := Ideal) m ρ c (Proc.devRef .tc main_v5) :=
  (W2_arr m ρ c 1).trans (((dat0 (V1 m ρ) c).arrAt_in 1 rfl _).trans (A_eq0 (V1 m ρ) c 1))

/-- So does the second. -/
theorem W6_v5 : W6 (F := Ideal) m ρ c (Proc.devRef .tc main_v5) = W5 (F := Ideal) m ρ c (Proc.devRef .tc main_v5) :=
  (W6_arr m ρ c 1).trans (((dat2 (V5 m ρ) c).arrAt_in 1 rfl _).trans (A_eq2 (V5 m ρ) c 1))

theorem W5_v5 : (W5 (F := Ideal) m ρ c (Proc.devRef .tc main_v5) : S1200000x1.Idx → EReal) = Cert.Layers.modeCol (m ((c : Thread nD τ).loc main_arg9)) (m ((c : Thread nD τ).loc main_arg10)) := by
  descend
  rw [W2_v5]
  exact W1_v5 m ρ c

theorem W9_v5 : (W9 (F := Ideal) m ρ c (Proc.devRef .tc main_v5) : S1200000x1.Idx → EReal) = Cert.Layers.modeCol (m ((c : Thread nD τ).loc main_arg9)) (m ((c : Thread nD τ).loc main_arg10)) := by
  descend
  rw [W6_v5]
  exact W5_v5 m ρ c

/-! ## Layer 1 -/

theorem W1_v13 : (W1 (F := Ideal) m ρ c (Proc.devRef .tc main_v13) : S1200000x64.Idx → EReal) = val_main_v10 (F := Ideal) (m ((c : Thread nD τ).loc main_arg0)) (m ((c : Thread nD τ).loc main_arg7)) := by
  descend
  rfl

theorem W1_v14 : (W1 (F := Ideal) m ρ c (Proc.devRef .tc main_v14) : S3x64.Idx → EReal) = val_main_v0 (F := Ideal) (m ((c : Thread nD τ).loc main_arg1)) (m ((c : Thread nD τ).loc main_arg2)) := by
  descend
  rfl

theorem W1_v18 : (W1 (F := Ideal) m ρ c (Proc.devRef .tc main_v18) : S64x64.Idx → EReal) = val_main_v21 (F := Ideal) (m ((c : Thread nD τ).loc main_arg3)) := by
  descend
  rfl

theorem W1_v22 : (W1 (F := Ideal) m ρ c (Proc.devRef .tc main_v22) : S64x64.Idx → EReal) = val_main_v25 (F := Ideal) (m ((c : Thread nD τ).loc main_arg4)) := by
  descend
  rfl

variable (het : ∀ i : S1200000.Idx, ((m ((c : Thread nD τ).loc main_arg9)) : IVec S1200000 32) i = 0#32 ∨ ((m ((c : Thread nD τ).loc main_arg9)) : IVec S1200000 32) i = 1#32)
  (hdr : ∀ i : S1200000.Idx, ((m ((c : Thread nD τ).loc main_arg10)) : IVec S1200000 32) i = 0#32 ∨ ((m ((c : Thread nD τ).loc main_arg10)) : IVec S1200000 32) i = 1#32)
include het hdr

/-- The first edge call's message array is the reference's first selected product. -/
theorem W2_v26 : (W2 (F := Ideal) m ρ c (Proc.devRef .tc main_v26) : S1200000x64.Idx → EReal)
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (m ((c : Thread nD τ).loc main_arg10)) := by
  refine ((W2_arr m ρ c 5).trans (EdgeValue0.final (V1 m ρ) c (m ((c : Thread nD τ).loc main_arg9)) (m ((c : Thread nD τ).loc main_arg10)) het hdr (W1_v5 m ρ c))).trans ?_
  show Cert.Layers.edgeMsg (W1 (F := Ideal) m ρ c (Proc.devRef .tc main_v13)) (W1 (F := Ideal) m ρ c (Proc.devRef .tc main_v14))
    (W1 (F := Ideal) m ρ c (Proc.devRef .tc main_v18)) (W1 (F := Ideal) m ρ c (Proc.devRef .tc main_v22)) (m ((c : Thread nD τ).loc main_arg9)) (m ((c : Thread nD τ).loc main_arg10)) = _
  rw [W1_v13, W1_v14, W1_v18, W1_v22]
  exact (msg0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (m ((c : Thread nD τ).loc main_arg10)) het).symm

theorem W3_a0 : W3 (F := Ideal) m ρ c (Proc.devRef .tc main_arg0) = (m ((c : Thread nD τ).loc main_arg0)) := by
  descend

theorem W3_v30 : (W3 (F := Ideal) m ρ c (Proc.devRef .tc main_v30) : S100000x64.Idx → EReal)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) := by
  descend
  rw [W2_v26 m ρ c het hdr]
  unfold val_main_v30
  generalize val_main_v27 (F := Ideal) _ _ _ _ _ _ _ _ = msg
  rfl

theorem W3_v31 : (W3 (F := Ideal) m ρ c (Proc.devRef .tc main_v31) : S1x64.Idx → EReal) = val_main_v31 (F := Ideal) (m ((c : Thread nD τ).loc main_arg1)) (m ((c : Thread nD τ).loc main_arg2)) := by
  descend
  rfl

theorem W3_v25 : (W3 (F := Ideal) m ρ c (Proc.devRef .tc main_v25) : S64x64.Idx → EReal) = val_main_v38 (F := Ideal) (m ((c : Thread nD τ).loc main_arg5)) := by
  descend
  rfl

/-- The first node call's feature array is the reference's first rectified sum. -/
theorem W4_v32 : (W4 (F := Ideal) m ρ c (Proc.devRef .tc main_v32) : S100000x64.Idx → EReal)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  refine ((W4_arr m ρ c 4).trans (NodeValue1.final (V3 m ρ) c)).trans ?_
  show Cert.Layers.nodeOut true (W3 (F := Ideal) m ρ c (Proc.devRef .tc main_arg0)) (W3 (F := Ideal) m ρ c (Proc.devRef .tc main_v30))
    (W3 (F := Ideal) m ρ c (Proc.devRef .tc main_v31)) (W3 (F := Ideal) m ρ c (Proc.devRef .tc main_v25)) = _
  rw [W3_a0 m ρ c het hdr, W3_v30 m ρ c het hdr, W3_v31 m ρ c het hdr, W3_v25 m ρ c het hdr]
  exact (node0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10))).symm

/-! ## Layer 2 -/

theorem W5_v46 : (W5 (F := Ideal) m ρ c (Proc.devRef .tc main_v46) : S1200000x64.Idx → EReal)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  dsimp only [W5, hostOps2]; after_results_simp
  rw [W4_v32 m ρ c het hdr]
  unfold val_main_v53
  generalize val_main_v45 (F := Ideal) _ _ _ _ _ _ _ _ _ _ = hu
  descend
  rfl

theorem W5_v47 : (W5 (F := Ideal) m ρ c (Proc.devRef .tc main_v47) : S3x64.Idx → EReal) = val_main_v46 (F := Ideal) (m ((c : Thread nD τ).loc main_arg1)) (m ((c : Thread nD τ).loc main_arg2)) (m ((c : Thread nD τ).loc main_arg6)) := by
  descend
  rfl

theorem W5_v51 : (W5 (F := Ideal) m ρ c (Proc.devRef .tc main_v51) : S64x64.Idx → EReal) = val_main_v64 (F := Ideal) (m ((c : Thread nD τ).loc main_arg3)) := by
  descend
  rfl

theorem W5_v55 : (W5 (F := Ideal) m ρ c (Proc.devRef .tc main_v55) : S64x64.Idx → EReal) = val_main_v68 (F := Ideal) (m ((c : Thread nD τ).loc main_arg4)) := by
  descend
  rfl

/-- The second edge call's message array is the reference's second selected product. -/
theorem W6_v59 : (W6 (F := Ideal) m ρ c (Proc.devRef .tc main_v59) : S1200000x64.Idx → EReal)
    = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 5).trans (EdgeValue2.final (V5 m ρ) c (m ((c : Thread nD τ).loc main_arg9)) (m ((c : Thread nD τ).loc main_arg10)) het hdr (W5_v5 m ρ c))).trans ?_
  show Cert.Layers.edgeMsg (W5 (F := Ideal) m ρ c (Proc.devRef .tc main_v46)) (W5 (F := Ideal) m ρ c (Proc.devRef .tc main_v47))
    (W5 (F := Ideal) m ρ c (Proc.devRef .tc main_v51)) (W5 (F := Ideal) m ρ c (Proc.devRef .tc main_v55)) (m ((c : Thread nD τ).loc main_arg9)) (m ((c : Thread nD τ).loc main_arg10)) = _
  rw [W5_v46 m ρ c het hdr, W5_v47 m ρ c het hdr, W5_v51 m ρ c het hdr, W5_v55 m ρ c het hdr]
  exact (msg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) het).symm

theorem W7_v32 : (W7 (F := Ideal) m ρ c (Proc.devRef .tc main_v32) : S100000x64.Idx → EReal)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  descend
  exact W4_v32 m ρ c het hdr

theorem W7_v63 : (W7 (F := Ideal) m ρ c (Proc.devRef .tc main_v63) : S100000x64.Idx → EReal)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W7, hostOps3]; after_results_simp
  rw [W6_v59 m ρ c het hdr]
  unfold val_main_v73
  generalize val_main_v70 (F := Ideal) _ _ _ _ _ _ _ _ _ _ _ = msg
  descend
  rfl

theorem W7_v64 : (W7 (F := Ideal) m ρ c (Proc.devRef .tc main_v64) : S1x64.Idx → EReal) = val_main_v74 (F := Ideal) (m ((c : Thread nD τ).loc main_arg1)) (m ((c : Thread nD τ).loc main_arg2)) (m ((c : Thread nD τ).loc main_arg6)) := by
  descend
  rfl

theorem W7_v58 : (W7 (F := Ideal) m ρ c (Proc.devRef .tc main_v58) : S64x64.Idx → EReal) = val_main_v81 (F := Ideal) (m ((c : Thread nD τ).loc main_arg5)) := by
  descend
  rfl

/-- The second node call's feature array is the reference's second rectified sum. -/
theorem W8_v65 : (W8 (F := Ideal) m ρ c (Proc.devRef .tc main_v65) : S100000x64.Idx → EReal)
    = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 4).trans (NodeValue3.final (V7 m ρ) c)).trans ?_
  show Cert.Layers.nodeOut true (W7 (F := Ideal) m ρ c (Proc.devRef .tc main_v32)) (W7 (F := Ideal) m ρ c (Proc.devRef .tc main_v63))
    (W7 (F := Ideal) m ρ c (Proc.devRef .tc main_v64)) (W7 (F := Ideal) m ρ c (Proc.devRef .tc main_v58)) = _
  rw [W7_v32 m ρ c het hdr, W7_v63 m ρ c het hdr, W7_v64 m ρ c het hdr, W7_v58 m ρ c het hdr]
  exact (node1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-! ## Layer 3 -/

theorem W9_v79 : (W9 (F := Ideal) m ρ c (Proc.devRef .tc main_v79) : S1200000x64.Idx → EReal)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W9, hostOps4]; after_results_simp
  rw [W8_v65 m ρ c het hdr]
  unfold val_main_v96
  generalize val_main_v88 (F := Ideal) _ _ _ _ _ _ _ _ _ _ _ = hu
  descend
  rfl

theorem W9_v80 : (W9 (F := Ideal) m ρ c (Proc.devRef .tc main_v80) : S3x64.Idx → EReal) = val_main_v89 (F := Ideal) (m ((c : Thread nD τ).loc main_arg1)) (m ((c : Thread nD τ).loc main_arg2)) (m ((c : Thread nD τ).loc main_arg6)) := by
  descend
  rfl

theorem W9_v84 : (W9 (F := Ideal) m ρ c (Proc.devRef .tc main_v84) : S64x64.Idx → EReal) = val_main_v107 (F := Ideal) (m ((c : Thread nD τ).loc main_arg3)) := by
  descend
  rfl

theorem W9_v88 : (W9 (F := Ideal) m ρ c (Proc.devRef .tc main_v88) : S64x64.Idx → EReal) = val_main_v111 (F := Ideal) (m ((c : Thread nD τ).loc main_arg4)) := by
  descend
  rfl

/-- The third edge call's message array is the reference's third selected product. -/
theorem W10_v92 : (W10 (F := Ideal) m ρ c (Proc.devRef .tc main_v92) : S1200000x64.Idx → EReal)
    = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 5).trans (EdgeValue4.final (V9 m ρ) c (m ((c : Thread nD τ).loc main_arg9)) (m ((c : Thread nD τ).loc main_arg10)) het hdr (W9_v5 m ρ c))).trans ?_
  show Cert.Layers.edgeMsg (W9 (F := Ideal) m ρ c (Proc.devRef .tc main_v79)) (W9 (F := Ideal) m ρ c (Proc.devRef .tc main_v80))
    (W9 (F := Ideal) m ρ c (Proc.devRef .tc main_v84)) (W9 (F := Ideal) m ρ c (Proc.devRef .tc main_v88)) (m ((c : Thread nD τ).loc main_arg9)) (m ((c : Thread nD τ).loc main_arg10)) = _
  rw [W9_v79 m ρ c het hdr, W9_v80 m ρ c het hdr, W9_v84 m ρ c het hdr, W9_v88 m ρ c het hdr]
  exact (msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) het).symm

theorem W11_v65 : (W11 (F := Ideal) m ρ c (Proc.devRef .tc main_v65) : S100000x64.Idx → EReal)
    = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  descend
  exact W8_v65 m ρ c het hdr

theorem W11_v96 : (W11 (F := Ideal) m ρ c (Proc.devRef .tc main_v96) : S100000x64.Idx → EReal)
    = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W11, hostOps5]; after_results_simp
  rw [W10_v92 m ρ c het hdr]
  unfold val_main_v116
  generalize val_main_v113 (F := Ideal) _ _ _ _ _ _ _ _ _ _ _ = msg
  descend
  rfl

theorem W11_v97 : (W11 (F := Ideal) m ρ c (Proc.devRef .tc main_v97) : S1x64.Idx → EReal) = val_main_v117 (F := Ideal) (m ((c : Thread nD τ).loc main_arg1)) (m ((c : Thread nD τ).loc main_arg2)) (m ((c : Thread nD τ).loc main_arg6)) := by
  descend
  rfl

theorem W11_v91 : (W11 (F := Ideal) m ρ c (Proc.devRef .tc main_v91) : S64x64.Idx → EReal) = val_main_v124 (F := Ideal) (m ((c : Thread nD τ).loc main_arg5)) := by
  descend
  rfl

/-- The third node call's feature array, with no rectifier, is the reference's result. -/
theorem W12_v98 : (W12 (F := Ideal) m ρ c (Proc.devRef .tc main_v98) : S100000x64.Idx → EReal)
    = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W12_arr m ρ c 4).trans (NodeValue5.final (V11 m ρ) c)).trans ?_
  show Cert.Layers.nodeOut false (W11 (F := Ideal) m ρ c (Proc.devRef .tc main_v65)) (W11 (F := Ideal) m ρ c (Proc.devRef .tc main_v96))
    (W11 (F := Ideal) m ρ c (Proc.devRef .tc main_v97)) (W11 (F := Ideal) m ρ c (Proc.devRef .tc main_v91)) = _
  rw [W11_v65 m ρ c het hdr, W11_v96 m ρ c het hdr, W11_v97 m ρ c het hdr, W11_v91 m ρ c het hdr]
  exact (node2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-- THE RESULT: after the last stretch of host operations, which does not write it, the result buffer holds the
    reference's last stage of the launch arrays. -/
theorem result : (W13 (F := Ideal) m ρ c (Proc.devRef .tc main_v98) : S100000x64.Idx → EReal)
    = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  descend
  exact W12_v98 m ρ c het hdr

end Cert.KernelIdeal.Chain

end
-- ==== Proof.PreLabels.lean ====
/-
  What the precondition says of the two label inputs.
  The precondition is a conjunction of whole-array tests; its last two conjuncts say that every edge-type word is 0 or 1
  and every direction word is 0 or 1. Splitting the conjunction and reading each "all" at an index gives the two facts
  element by element.
-/
import proofs.«415866_j30846455119993_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Layers

open Idealize.ShloMosaic Cert.Pre_finite_inputs

/-- A rank-0 array has exactly one index: there is no coordinate on which two indices could differ. -/
private instance scalarIdxSubsingleton : Subsingleton S_.Idx := ⟨fun a b => funext fun d => d.elim0⟩

/-- The elementwise test "equal to 0, or equal to 1" read at one position: the "or" of two bits is 1 only when one of
    them is, an equality bit is 1 only when the two words are equal, and a broadcast scalar reads the scalar at every
    position. So a word passing the test is 0 or 1. -/
private theorem word_of_test [Cert.Pre_finite_inputs.Facts] (x : IVec S1200000 32) (i : S1200000.Idx)
    (e : ori (cmpi .eq x (broadcastInDim S1200000 ![] Facts.bcast_S_S1200000 (constantI S_ 32 0#32)))
          (cmpi .eq x (broadcastInDim S1200000 ![] Facts.bcast_S_S1200000 (constantI S_ 32 1#32))) i = 1#1) :
    x i = 0#32 ∨ x i = 1#32 := by
  change IntOp.ori (IntOp.cmpi .eq (x i) _) (IntOp.cmpi .eq (x i) _) = 1#1 at e
  rcases IntOp.ori_eq_one.1 e with e0 | e1
  · left
    have := StableHlo.Predicate.cmpi_eq_iff.1 e0
    rw [this, StableHlo.Predicate.bcast_scalar _ Facts.h_S_]; rfl
  · right
    have := StableHlo.Predicate.cmpi_eq_iff.1 e1
    rw [this, StableHlo.Predicate.bcast_scalar _ Facts.h_S_]; rfl

/-- The tail of the conjunction is (v and all(test of the edge-type words)) and all(test of the direction words),
    whatever the bit v accumulated before it. An "and" of two bits is 1 only when both are, so both "all"s are 1; an
    "all" over every axis that is 1 had a 1 at every position; and the test at a position gives the word there. -/
private theorem labels_of_part2 [Cert.Pre_finite_inputs.Facts] (x9 x10 : IVec S1200000 32) (v : IVec S_ 1)
    (h : fn_part2 (F := Ideal) x9 x10 v ValueIdx.ix0 = 1#1) :
    (∀ i, x9 i = 0#32 ∨ x9 i = 1#32) ∧ (∀ i, x10 i = 0#32 ∨ x10 i = 1#32) := by
  dsimp only [fn_part2] at h
  change IntOp.andi (IntOp.andi _ _) _ = 1#1 at h
  obtain ⟨h1, h10⟩ := IntOp.andi_eq_one.1 h
  obtain ⟨_, h9⟩ := IntOp.andi_eq_one.1 h1
  exact ⟨fun i => word_of_test x9 i (Host.reduce_andi_all _ _ _ _ _ h9 i),
    fun i => word_of_test x10 i (Host.reduce_andi_all _ _ _ _ _ h10 i)⟩

/-- Under the precondition every edge-type word and every direction word is 0 or 1. -/
theorem labels_of_pre [Cert.Pre_finite_inputs.Facts]
    (x0 : FVec Ideal S100000x64 .f32) (x1 : FVec Ideal S16x64 .f32) (x2 : FVec Ideal S3x16 .f32)
    (x3 x4 x5 x6 : FVec Ideal S3x64x64 .f32) (x7 x8 x9 x10 : IVec S1200000 32)
    (h : Cert.Pre_finite_inputs.fn (F := Ideal) x0 x1 x2 x3 x4 x5 x6 x7 x8 x9 x10 = fun _ => 1#1) :
    (∀ i, x9 i = 0#32 ∨ x9 i = 1#32) ∧ (∀ i, x10 i = 0#32 ∨ x10 i = 1#32) := by
  -- The precondition's one value is its tail applied to the bit the seven tests on the float inputs accumulated.
  have h0 := congrFun h ValueIdx.ix0
  unfold Cert.Pre_finite_inputs.fn Cert.Pre_finite_inputs.fn_part1 at h0
  exact labels_of_part2 x9 x10 _ h0

end Cert.Layers

end
-- ==== Proof.lean ====
/-
  The certificate's claims.
  Both programs compute three layers of relational message passing over a graph with 100000 nodes and 1200000 edges.
  The reference gathers, per edge, the source node's features and the edge type's relation row, multiplies their
  difference by both transposed weight slices and keeps the product the direction test selects; it scatters the
  messages into the nodes, adds the node's own features (less the self-loop row) through the self weight slice, and
  rectifies on the first two layers; the relation table is updated beside it. The kernel program does the per-edge and
  per-node work in six kernel calls: the edge call receives the type and the direction packed in one number
  2·type + direction and decodes two 0/1 selectors from it, blending the two relation rows and the two products with
  them. Where every type word and every direction word is 0 or 1 — which the precondition states — the selectors are the
  type and the direction test, and a blend with factors 0 and 1 is a selection on every extended real (0·x = 0, 1·x = x,
  x + 0 = x need no finiteness). Everything else is the same operations on both sides (a change of float format is the
  identity at the ideal instance). So the kernel program's result buffer ends at the reference's last stage of the same
  arguments.
  The frames of the two kernel programs are the generated ones; the reference's frame is its generated run with the
  result dropped; the idealization rewrote nothing, so there is nothing to preserve.
-/
import proofs.«415866_j30846455119993_3_alg».proof.Defs
import proofs.«415866_j30846455119993_3_alg».proof.Proof.Gen.Kernel
import proofs.«415866_j30846455119993_3_alg».proof.Proof.Gen.Kernel.Frame
import proofs.«415866_j30846455119993_3_alg».proof.Proof.Gen.KernelIdeal
import proofs.«415866_j30846455119993_3_alg».proof.Proof.Gen.KernelIdeal.Frame
import proofs.«415866_j30846455119993_3_alg».proof.Proof.Gen.ReferenceIdeal
import proofs.«415866_j30846455119993_3_alg».proof.Proof.Gen.Pre_finite_inputs
import proofs.«415866_j30846455119993_3_alg».proof.Proof.Gen.ReferenceIdeal.Run
import proofs.«415866_j30846455119993_3_alg».proof.Proof.Gen.ReferenceIdeal.Read
import proofs.«415866_j30846455119993_3_alg».proof.Proof.KernelRun
import proofs.«415866_j30846455119993_3_alg».proof.Proof.KernelChain
import proofs.«415866_j30846455119993_3_alg».proof.Proof.PreLabels
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel call: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the (agreeing) argument arrays: the kernel program by its
    boundaries walked down to the launch, under the labels the precondition gives; the reference by its run. -/
theorem algebraic : Cert.algebraic_KernelIdeal_ReferenceIdeal := by
  intro m ρ m' ρ' hpre hagree
  have hlab := fun c : Dev Cert.KernelIdeal.nD => Cert.Layers.labels_of_pre _ _ _ _ _ _ _ _ _ _ _ (hpre c)
  refine ⟨fun c => Cert.ReferenceIdeal.Read.val_main_v126 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c (hlab c).1 (hlab c).2), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v126_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
